-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x192x256 : Shape := ⟨4, ![1, 64, 192, 256]⟩
abbrev S256 : Shape := ⟨1, ![256]⟩
abbrev S256x32 : Shape := ⟨2, ![256, 32]⟩
abbrev S32 : Shape := ⟨1, ![32]⟩
abbrev S1024x128 : Shape := ⟨2, ![1024, 128]⟩
abbrev S128 : Shape := ⟨1, ![128]⟩
abbrev S_ : Shape := ⟨0, ![]⟩

class Facts : Prop where
  bcast_S_S1x64x192x256 : S_.BroadcastsInDim S1x64x192x256 (![] : Fin 0 → Fin S1x64x192x256.rank)
  reducesTo_S1x64x192x256_S_d0_1_2_3 : S1x64x192x256.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S1024x128 .f32) (main_arg8 : FVec F S128 .f32) (main_v33 : IVec S_ 1) : IVec S_ 1 :=
  let main_v34 : FVec F S1024x128 .f32 := Host.absf main_arg7
  let main_cst_12 : FVec F S_ .f32 := constant S_ .f32 0x7F800000#32
  let main_v35 : FVec F S1024x128 .f32 := broadcastInDim S1024x128 ![] bcast_S_S1024x128 main_cst_12
  let main_v36 : IVec S1024x128 1 := cmpf .olt main_v34 main_v35
  let main_c_13 : IVec S_ 1 := constantI S_ 1 1#1
  let main_v37 : IVec S_ 1 := (fun x v => Host.reduce IntOp.andi x v reducesTo_S1024x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S32 .f32) (main_arg5 : FVec F S256x32 .f32) (main_arg6 : FVec F S32 .f32) (main_arg7 : FVec F S1024x128 .f32) (main_arg8 : FVec F S128 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S256x32 .f32 := Host.absf main_arg5
  let main_cst_8 : FVec F S_ .f32 := constant S_ .f32 0x7F800000#32
  let main_v25 : FVec F S256x32 .f32 := broadcastInDim S256x32 ![] bcast_S_S256x32 main_cst_8
  let main_v26 : IVec S256x32 1 := cmpf .olt main_v24 main_v25
  let main_c_9 : IVec S_ 1 := constantI S_ 1 1#1
  let main_v27 : IVec S_ 1 := (fun x v => Host.reduce IntOp.andi x v reducesTo_S256x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S1x64x192x256 .f32) (main_arg1 : FVec F S256 .f32) (main_arg2 : FVec F S256 .f32) (main_arg3 : FVec F S256x32 .f32) (main_arg4 : FVec F S32 .f32) (main_arg5 : FVec F S256x32 .f32) (main_arg6 : FVec F S32 .f32) (main_arg7 : FVec F S1024x128 .f32) (main_arg8 : FVec F S128 .f32) : IVec S_ 1 :=
  let main_v0 : FVec F S1x64x192x256 .f32 := Host.absf main_arg0
  let main_cst : FVec F S_ .f32 := constant S_ .f32 0x7F800000#32
  let main_v1 : FVec F S1x64x192x256 .f32 := broadcastInDim S1x64x192x256 ![] bcast_S_S1x64x192x256 main_cst
  let main_v2 : IVec S1x64x192x256 1 := cmpf .olt main_v0 main_v1
  let main_c : IVec S_ 1 := constantI S_ 1 1#1
  let main_v3 : IVec S_ 1 := (fun x v => Host.reduce IntOp.andi x v reducesTo_S1x64x192x256_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_arg5 main_arg6 main_arg7 main_arg8 main_v13 main_v16
-- ==== Kernel.lean ====
abbrev S1x64x192x256 : Shape := ⟨4, ![1, 64, 192, 256]⟩
abbrev S256 : Shape := ⟨1, ![256]⟩
abbrev S256x32 : Shape := ⟨2, ![256, 32]⟩
abbrev S32 : Shape := ⟨1, ![32]⟩
abbrev S1024x128 : Shape := ⟨2, ![1024, 128]⟩
abbrev S128 : Shape := ⟨1, ![128]⟩
abbrev S64x192x256 : Shape := ⟨3, ![64, 192, 256]⟩
abbrev S32x192x64 : Shape := ⟨3, ![32, 192, 64]⟩
abbrev S64x96x256 : Shape := ⟨3, ![64, 96, 256]⟩
abbrev S32x96x64 : Shape := ⟨3, ![32, 96, 64]⟩
abbrev S64x96 : Shape := ⟨2, ![64, 96]⟩
abbrev S64x96x1 : Shape := ⟨3, ![64, 96, 1]⟩
abbrev S1x1x256 : Shape := ⟨3, ![1, 1, 256]⟩
abbrev S6144x256 : Shape := ⟨2, ![6144, 256]⟩
abbrev S6144x32 : Shape := ⟨2, ![6144, 32]⟩
abbrev S1x32 : Shape := ⟨2, ![1, 32]⟩
abbrev S64x96x32 : Shape := ⟨3, ![64, 96, 32]⟩
abbrev S_ : Shape := ⟨0, ![]⟩
abbrev S192x192x128 : Shape := ⟨3, ![192, 192, 128]⟩
abbrev S128x128 : Shape := ⟨2, ![128, 128]⟩
abbrev S96x192x128 : Shape := ⟨3, ![96, 192, 128]⟩
abbrev S1x96x64 : Shape := ⟨3, ![1, 96, 64]⟩
abbrev S96x64 : Shape := ⟨2, ![96, 64]⟩
abbrev S1x192x64 : Shape := ⟨3, ![1, 192, 64]⟩
abbrev S192x64 : Shape := ⟨2, ![192, 64]⟩
abbrev S32x96x192 : Shape := ⟨3, ![32, 96, 192]⟩
abbrev S96x192x32 : Shape := ⟨3, ![96, 192, 32]⟩
abbrev S18432x128 : Shape := ⟨2, ![18432, 128]⟩
abbrev S1x1x128 : Shape := ⟨3, ![1, 1, 128]⟩
abbrev S1x192x192x128 : Shape := ⟨4, ![1, 192, 192, 128]⟩

abbrev nBuf : Space → Nat
  | .hbm => 18
  | .vmem => 20
  | .smem => 0
  | _ => 0

abbrev bufTy : (tb : Table) → Fin (tcTables nBuf tb) → BufTy
  | .hbm, ⟨0, _⟩ => ⟨S1x64x192x256, .f32⟩
  | .hbm, ⟨1, _⟩ => ⟨S256, .f32⟩
  | .hbm, ⟨2, _⟩ => ⟨S256, .f32⟩
  | .hbm, ⟨3, _⟩ => ⟨S256x32, .f32⟩
  | .hbm, ⟨4, _⟩ => ⟨S32, .f32⟩
  | .hbm, ⟨5, _⟩ => ⟨S256x32, .f32⟩
  | .hbm, ⟨6, _⟩ => ⟨S32, .f32⟩
  | .hbm, ⟨7, _⟩ => ⟨S1024x128, .f32⟩
  | .hbm, ⟨8, _⟩ => ⟨S128, .f32⟩
  | .hbm, ⟨9, _⟩ => ⟨S64x192x256, .f32⟩
  | .hbm, ⟨10, _⟩ => ⟨S32x192x64, .f32⟩
  | .hbm, ⟨11, _⟩ => ⟨S32x192x64, .f32⟩
  | .hbm, ⟨12, _⟩ => ⟨S_, .f32⟩
  | .hbm, ⟨13, _⟩ => ⟨S1024x128, .f32⟩
  | .hbm, ⟨14, _⟩ => ⟨S1024x128, .f32⟩
  | .hbm, ⟨15, _⟩ => ⟨S1024x128, .bf16⟩
  | .hbm, ⟨16, _⟩ => ⟨S192x192x128, .f32⟩
  | .hbm, ⟨17, _⟩ => ⟨S1x192x192x128, .f32⟩
  | .local _ .vmem, ⟨0, _⟩ => ⟨S64x96x256, .f32⟩
  | .local _ .vmem, ⟨1, _⟩ => ⟨S64x96x256, .f32⟩
  | .local _ .vmem, ⟨2, _⟩ => ⟨S256, .f32⟩
  | .local _ .vmem, ⟨3, _⟩ => ⟨S256, .f32⟩
  | .local _ .vmem, ⟨4, _⟩ => ⟨S256x32, .f32⟩
  | .local _ .vmem, ⟨5, _⟩ => ⟨S32, .f32⟩
  | .local _ .vmem, ⟨6, _⟩ => ⟨S256x32, .f32⟩
  | .local _ .vmem, ⟨7, _⟩ => ⟨S32, .f32⟩
  | .local _ .vmem, ⟨8, _⟩ => ⟨S32x96x64, .f32⟩
  | .local _ .vmem, ⟨9, _⟩ => ⟨S32x96x64, .f32⟩
  | .local _ .vmem, ⟨10, _⟩ => ⟨S32x96x64, .f32⟩
  | .local _ .vmem, ⟨11, _⟩ => ⟨S32x96x64, .f32⟩
  | .local _ .vmem, ⟨12, _⟩ => ⟨S32x96x64, .f32⟩
  | .local _ .vmem, ⟨13, _⟩ => ⟨S32x96x64, .f32⟩
  | .local _ .vmem, ⟨14, _⟩ => ⟨S32x192x64, .f32⟩
  | .local _ .vmem, ⟨15, _⟩ => ⟨S128x128, .bf16⟩
  | .local _ .vmem, ⟨16, _⟩ => ⟨S128x128, .bf16⟩
  | .local _ .vmem, ⟨17, _⟩ => ⟨S128, .f32⟩
  | .local _ .vmem, ⟨18, _⟩ => ⟨S96x192x128, .f32⟩
  | .local _ .vmem, ⟨19, _⟩ => ⟨S96x192x128, .bf16⟩
  | _, _ => ⟨S1x64x192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x96x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x96x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x96x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![2, 8], ![false, false]⟩

def k1_off1 (i : grid1.Coords) (c0_i32_6 : BitVec 32) : Fin 3 → Nat :=
  let arg1 : BitVec 32 := BitVec.ofNat 32 (i 1).val
  let c4_i32 : BitVec 32 := 4#32
  let v7 : BitVec 32 := Scalar.muli arg1 c4_i32
  let v8 : BitVec 32 := Scalar.addi v7 c0_i32_6
  let v9 : Index := Scalar.indexCast v8
  let c0_7 : Index := 0#32
  let c0_8 : Index := 0#32
  ![v9.toNat, 0, 0]
def k1_off2 (i : grid1.Coords) (c0_i32_6 : BitVec 32) : Fin 3 → Nat :=
  let arg1 : BitVec 32 := BitVec.ofNat 32 (i 1).val
  let c4_i32 : BitVec 32 := 4#32
  let v7 : BitVec 32 := Scalar.muli arg1 c4_i32
  let v8 : BitVec 32 := Scalar.addi v7 c0_i32_6
  let v12 : Index := Scalar.indexCast v8
  let c0_9 : Index := 0#32
  let c0_10 : Index := 0#32
  ![v12.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x96x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S32x192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S128x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S96x192x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, false]

class Facts₀ : Prop where
  shapeCasts_S1x64x192x256_S64x192x256 : S1x64x192x256.ShapeCasts S64x192x256
  inb_S64x96x256_S64x96x256_0_0_0 : ∀ a, (![0, 0, 0] : Fin 3 → Nat) a + S64x96x256.size a ≤ S64x96x256.size a
  h_S64x96x256 : 0 < S64x96x256.numel
  shapeCasts_S64x96x256_S64x96x256 : S64x96x256.ShapeCasts S64x96x256
  reduces_S64x96x256_S64x96 : S64x96x256.Reduces [2] S64x96
  shapeCasts_S64x96_S64x96x1 : S64x96.ShapeCasts S64x96x1
  broadcasts_S64x96x1_S64x96x256 : S64x96x1.Broadcasts S64x96x256
  inb_S256_S256_0 : ∀ a, (![0] : Fin 1 → Nat) a + S256.size a ≤ S256.size a
  h_S256 : 0 < S256.numel
  shapeCasts_S256_S1x1x256 : S256.ShapeCasts S1x1x256
  broadcasts_S1x1x256_S64x96x256 : S1x1x256.Broadcasts S64x96x256
  shapeCasts_S64x96x256_S6144x256 : S64x96x256.ShapeCasts S6144x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S32_S32_0 : ∀ a, (![0] : Fin 1 → Nat) a + S32.size a ≤ S32.size a
  h_S32 : 0 < S32.numel
  shapeCasts_S32_S1x32 : S32.ShapeCasts S1x32
  broadcasts_S1x32_S6144x32 : S1x32.Broadcasts S6144x32
  shapeCasts_S6144x32_S64x96x32 : S6144x32.ShapeCasts S64x96x32
  transposes_S64x96x32_p2_1_0_S32x96x64 : S64x96x32.Transposes [2, 1, 0] S32x96x64
  inb_S32x96x64_S32x96x64_0_0_0 : ∀ a, (![0, 0, 0] : Fin 3 → Nat) a + S32x96x64.size a ≤ S32x96x64.size a
  h_S32x96x64 : 0 < S32x96x64.numel
  bcast_S_S1024x128 : S_.BroadcastsInDim S1024x128 (![] : Fin 0 → Fin S1024x128.rank)
  inb_S96x192x128_S96x192x128_0_0_0 : ∀ a, (![0, 0, 0] : Fin 3 → Nat) a + S96x192x128.size a ≤ S96x192x128.size a
  h_S96x192x128 : 0 < S96x192x128.numel
  shapeCasts_S32x96x64_S32x96x64 : S32x96x64.ShapeCasts S32x96x64
  inb_S32x192x64_S32x192x64_0_0_0 : ∀ a, (![0, 0, 0] : Fin 3 → Nat) a + S32x192x64.size a ≤ S32x192x64.size a
  h_S32x192x64 : 0 < S32x192x64.numel
  shapeCasts_S32x192x64_S32x192x64 : S32x192x64.ShapeCasts S32x192x64
  h_S1x96x64 : 0 < S1x96x64.numel
  shapeCasts_S1x96x64_S96x64 : S1x96x64.ShapeCasts S96x64
  h_S1x192x64 : 0 < S1x192x64.numel
  shapeCasts_S1x192x64_S192x64 : S1x192x64.ShapeCasts S192x64
  shapeCasts_S96x64_S1x96x64 : S96x64.ShapeCasts S1x96x64
  broadcasts_S1x96x64_S32x96x64 : S1x96x64.Broadcasts S32x96x64
  shapeCasts_S192x64_S1x192x64 : S192x64.ShapeCasts S1x192x64
  broadcasts_S1x192x64_S32x192x64 : S1x192x64.Broadcasts S32x192x64
  transposes_S32x96x192_p1_2_0_S96x192x32 : S32x96x192.Transposes [1, 2, 0] S96x192x32
  inb_S96x192x128_S96x192x32_0_0_0 : ∀ a, (![0, 0, 0] : Fin 3 → Nat) a + S96x192x32.size a ≤ S96x192x128.size a
  h_S96x192x32 : 0 < S96x192x32.numel
  shapeCasts_S96x192x32_S96x192x32 : S96x192x32.ShapeCasts S96x192x32
  packedbf16_S96x192x128_S96x192x32_0_0_0 : (Rect.unit (s := S96x192x128) ![0, 0, 0] S96x192x32.size inb_S96x192x128_S96x192x32_0_0_0).PackedRows (EltTy.packing .bf16)
  inb_S96x192x128_S96x192x32_0_0_32 : ∀ a, (![0, 0, 32] : Fin 3 → Nat) a + S96x192x32.size a ≤ S96x192x128.size a
  packedbf16_S96x192x128_S96x192x32_0_0_32 : (Rect.unit (s := S96x192x128) ![0, 0, 32] S96x192x32.size inb_S96x192x128_S96x192x32_0_0_32).PackedRows (EltTy.packing .bf16)
  inb_S96x192x128_S96x192x32_0_0_64 : ∀ a, (![0, 0, 64] : Fin 3 → Nat) a + S96x192x32.size a ≤ S96x192x128.size a
  packedbf16_S96x192x128_S96x192x32_0_0_64 : (Rect.unit (s := S96x192x128) ![0, 0, 64] S96x192x32.size inb_S96x192x128_S96x192x32_0_0_64).PackedRows (EltTy.packing .bf16)
  inb_S96x192x128_S96x192x32_0_0_96 : ∀ a, (![0, 0, 96] : Fin 3 → Nat) a + S96x192x32.size a ≤ S96x192x128.size a
  packedbf16_S96x192x128_S96x192x32_0_0_96 : (Rect.unit (s := S96x192x128) ![0, 0, 96] S96x192x32.size inb_S96x192x128_S96x192x32_0_0_96).PackedRows (EltTy.packing .bf16)
  shapeCasts_S96x192x128_S18432x128 : S96x192x128.ShapeCasts S18432x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S96x192x128_S96x192x128 : S96x192x128.ShapeCasts S96x192x128
  shapeCasts_S18432x128_S96x192x128 : S18432x128.ShapeCasts S96x192x128
  inb_S128_S128_0 : ∀ a, (![0] : Fin 1 → Nat) a + S128.size a ≤ S128.size a
  h_S128 : 0 < S128.numel
  shapeCasts_S128_S1x1x128 : S128.ShapeCasts S1x1x128
  broadcasts_S1x1x128_S96x192x128 : S1x1x128.Broadcasts S96x192x128
  bcast_S192x192x128_S1x192x192x128_1_2_3 : S192x192x128.BroadcastsInDim S1x192x192x128 (![1, 2, 3] : Fin 3 → Fin S1x192x192x128.rank)
  dot_S6144x256_S256x32_S6144x32_1_0_0_1_n_n_wf : DotDims.WF S6144x256 S256x32 S6144x32 [1] [0] [0] [1] [] []
  dot_S32x96x64_S32x192x64_S32x96x192_2_2_1_1_0_0_wf : DotDims.WF S32x96x64 S32x192x64 S32x96x192 [2] [2] [1] [1] [0] [0]
  dot_S18432x128_S128x128_S18432x128_1_0_0_1_n_n_wf : DotDims.WF S18432x128 S128x128 S18432x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x96x256.size a ≤ S64x192x256.size a
  hwx0_0 : ∀ i : grid0.Coords, EltTy.bits .f32 = 32 ∨ (Rect.block (s := S64x192x256) S64x96x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S256.size a
  hwx0_1 : ∀ i : grid0.Coords, EltTy.bits .f32 = 32 ∨ (Rect.block (s := S256) S256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .f32 = 32 ∨ (Rect.block (s := S256x32) S256x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S256x32.size a
  hwx0_5 : ∀ i : grid0.Coords, EltTy.bits .f32 = 32 ∨ (Rect.block (s := S256x32) S256x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x96x64.size a ≤ S32x192x64.size a
  hwx0_7 : ∀ i : grid0.Coords, EltTy.bits .f32 = 32 ∨ (Rect.block (s := S32x192x64) S32x96x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x96x64.size a ≤ S32x192x64.size a
  hwx0_8 : ∀ i : grid0.Coords, EltTy.bits .f32 = 32 ∨ (Rect.block (s := S32x192x64) S32x96x64.size (cc0_transform_8 i) (hinb0_8 i)).WholeWords (EltTy.packing .f32)
  hrank1 : 0 < grid1.rank
  k1_off1_inb : ∀ i : grid1.Coords, ∀ (r : Fin 4), ∀ a, (k1_off1 i (BitVec.ofNat 32 r.val)) a + S1x96x64.size a ≤ S32x96x64.size a
  k1_off2_inb : ∀ i : grid1.Coords, ∀ (r : Fin 4), ∀ a, (k1_off2 i (BitVec.ofNat 32 r.val)) a + S1x192x64.size a ≤ S32x192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x96x64.size a ≤ S32x192x64.size a
  hwx1_0 : ∀ i : grid1.Coords, EltTy.bits .f32 = 32 ∨ (Rect.block (s := S32x192x64) S32x96x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x192x64.size a ≤ S32x192x64.size a
  hwx1_1 : ∀ i : grid1.Coords, EltTy.bits .f32 = 32 ∨ (Rect.block (s := S32x192x64) S32x192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S1024x128.size a
  hwx1_2 : ∀ i : grid1.Coords, EltTy.bits .bf16 = 32 ∨ (Rect.block (s := S1024x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x192x128.size a ≤ S192x192x128.size a
  hwx1_4 : ∀ i : grid1.Coords, EltTy.bits .f32 = 32 ∨ (Rect.block (s := S192x192x128) S96x192x128.size (cc1_transform_4 i) (hinb1_4 i)).WholeWords (EltTy.packing .f32)

variable [Facts₀]

def dot_S6144x256_S256x32_S6144x32_1_0_0_1_n_n : DotDims S6144x256 S256x32 S6144x32 where
  lhsContracting := [1]
  rhsContracting := [0]
  lhsNonContracting := [0]
  rhsNonContracting := [1]
  lhsBatch := []
  rhsBatch := []
  wf := dot_S6144x256_S256x32_S6144x32_1_0_0_1_n_n_wf
def dot_S32x96x64_S32x192x64_S32x96x192_2_2_1_1_0_0 : DotDims S32x96x64 S32x192x64 S32x96x192 where
  lhsContracting := [2]
  rhsContracting := [2]
  lhsNonContracting := [1]
  rhsNonContracting := [1]
  lhsBatch := [0]
  rhsBatch := [0]
  wf := dot_S32x96x64_S32x192x64_S32x96x192_2_2_1_1_0_0_wf
def dot_S18432x128_S128x128_S18432x128_1_0_0_1_n_n : DotDims S18432x128 S128x128 S18432x128 where
  lhsContracting := [1]
  rhsContracting := [0]
  lhsNonContracting := [0]
  rhsNonContracting := [1]
  lhsBatch := []
  rhsBatch := []
  wf := dot_S18432x128_S128x128_S18432x128_1_0_0_1_n_n_wf

abbrev win0_0 : Pipeline.Window sig grid0 :=
  Pipeline.Window.ofSpec (Memref.whole main_v0) S64x96x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_0) S32x96x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_1) S32x96x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v1_0) S32x96x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S32x192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S96x192x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x64x192x256 : Shape := ⟨4, ![1, 64, 192, 256]⟩
abbrev S256 : Shape := ⟨1, ![256]⟩
abbrev S256x32 : Shape := ⟨2, ![256, 32]⟩
abbrev S32 : Shape := ⟨1, ![32]⟩
abbrev S1024x128 : Shape := ⟨2, ![1024, 128]⟩
abbrev S128 : Shape := ⟨1, ![128]⟩
abbrev S_ : Shape := ⟨0, ![]⟩
abbrev S1x64x192 : Shape := ⟨3, ![1, 64, 192]⟩
abbrev S1x64x192x1 : Shape := ⟨4, ![1, 64, 192, 1]⟩
abbrev S1x1x1x256 : Shape := ⟨4, ![1, 1, 1, 256]⟩
abbrev S32x1x64x192 : Shape := ⟨4, ![32, 1, 64, 192]⟩
abbrev S1x192x64x32 : Shape := ⟨4, ![1, 192, 64, 32]⟩
abbrev S1x1x1x32 : Shape := ⟨4, ![1, 1, 1, 32]⟩
abbrev S1x192x1x64x32 : Shape := ⟨5, ![1, 192, 1, 64, 32]⟩
abbrev S1x1x192x64x32 : Shape := ⟨5, ![1, 1, 192, 64, 32]⟩
abbrev S1x192x192x64x32 : Shape := ⟨5, ![1, 192, 192, 64, 32]⟩
abbrev S1x192x192x32x32 : Shape := ⟨5, ![1, 192, 192, 32, 32]⟩
abbrev S1x192x192x1024 : Shape := ⟨4, ![1, 192, 192, 1024]⟩
abbrev S1x192x192x128 : Shape := ⟨4, ![1, 192, 192, 128]⟩
abbrev S1x1x1x128 : Shape := ⟨4, ![1, 1, 1, 128]⟩

abbrev nBuf : Space → Nat
  | .hbm => 62
  | .vmem => 0
  | .smem => 0
  | _ => 0

abbrev bufTy : (tb : Table) → Fin (tcTables nBuf tb) → BufTy
  | .hbm, ⟨0, _⟩ => ⟨S1x64x192x256, .f32⟩
  | .hbm, ⟨1, _⟩ => ⟨S256, .f32⟩
  | .hbm, ⟨2, _⟩ => ⟨S256, .f32⟩
  | .hbm, ⟨3, _⟩ => ⟨S256x32, .f32⟩
  | .hbm, ⟨4, _⟩ => ⟨S32, .f32⟩
  | .hbm, ⟨5, _⟩ => ⟨S256x32, .f32⟩
  | .hbm, ⟨6, _⟩ => ⟨S32, .f32⟩
  | .hbm, ⟨7, _⟩ => ⟨S1024x128, .f32⟩
  | .hbm, ⟨8, _⟩ => ⟨S128, .f32⟩
  | .hbm, ⟨9, _⟩ => ⟨S_, .f32⟩
  | .hbm, ⟨10, _⟩ => ⟨S1x64x192, .f32⟩
  | .hbm, ⟨11, _⟩ => ⟨S1x64x192x1, .f32⟩
  | .hbm, ⟨12, _⟩ => ⟨S_, .f32⟩
  | .hbm, ⟨13, _⟩ => ⟨S1x64x192x1, .f32⟩
  | .hbm, ⟨14, _⟩ => ⟨S1x64x192x1, .f32⟩
  | .hbm, ⟨15, _⟩ => ⟨S1x64x192x256, .f32⟩
  | .hbm, ⟨16, _⟩ => ⟨S1x64x192x256, .f32⟩
  | .hbm, ⟨17, _⟩ => ⟨S1x64x192x256, .f32⟩
  | .hbm, ⟨18, _⟩ => ⟨S_, .f32⟩
  | .hbm, ⟨19, _⟩ => ⟨S1x64x192, .f32⟩
  | .hbm, ⟨20, _⟩ => ⟨S1x64x192x1, .f32⟩
  | .hbm, ⟨21, _⟩ => ⟨S_, .f32⟩
  | .hbm, ⟨22, _⟩ => ⟨S1x64x192x1, .f32⟩
  | .hbm, ⟨23, _⟩ => ⟨S1x64x192x1, .f32⟩
  | .hbm, ⟨24, _⟩ => ⟨S1x64x192x256, .f32⟩
  | .hbm, ⟨25, _⟩ => ⟨S1x64x192x256, .f32⟩
  | .hbm, ⟨26, _⟩ => ⟨S_, .f32⟩
  | .hbm, ⟨27, _⟩ => ⟨S1x64x192x1, .f32⟩
  | .hbm, ⟨28, _⟩ => ⟨S1x64x192x1, .f32⟩
  | .hbm, ⟨29, _⟩ => ⟨S1x64x192x1, .f32⟩
  | .hbm, ⟨30, _⟩ => ⟨S1x64x192x256, .f32⟩
  | .hbm, ⟨31, _⟩ => ⟨S1x64x192x256, .f32⟩
  | .hbm, ⟨32, _⟩ => ⟨S1x1x1x256, .f32⟩
  | .hbm, ⟨33, _⟩ => ⟨S1x64x192x256, .f32⟩
  | .hbm, ⟨34, _⟩ => ⟨S1x64x192x256, .f32⟩
  | .hbm, ⟨35, _⟩ => ⟨S1x1x1x256, .f32⟩
  | .hbm, ⟨36, _⟩ => ⟨S1x64x192x256, .f32⟩
  | .hbm, ⟨37, _⟩ => ⟨S1x64x192x256, .f32⟩
  | .hbm, ⟨38, _⟩ => ⟨S32x1x64x192, .f32⟩
  | .hbm, ⟨39, _⟩ => ⟨S1x192x64x32, .f32⟩
  | .hbm, ⟨40, _⟩ => ⟨S1x1x1x32, .f32⟩
  | .hbm, ⟨41, _⟩ => ⟨S1x192x64x32, .f32⟩
  | .hbm, ⟨42, _⟩ => ⟨S1x192x64x32, .f32⟩
  | .hbm, ⟨43, _⟩ => ⟨S32x1x64x192, .f32⟩
  | .hbm, ⟨44, _⟩ => ⟨S1x192x64x32, .f32⟩
  | .hbm, ⟨45, _⟩ => ⟨S1x1x1x32, .f32⟩
  | .hbm, ⟨46, _⟩ => ⟨S1x192x64x32, .f32⟩
  | .hbm, ⟨47, _⟩ => ⟨S1x192x64x32, .f32⟩
  | .hbm, ⟨48, _⟩ => ⟨S1x192x1x64x32, .f32⟩
  | .hbm, ⟨49, _⟩ => ⟨S1x1x192x64x32, .f32⟩
  | .hbm, ⟨50, _⟩ => ⟨S1x192x192x64x32, .f32⟩
  | .hbm, ⟨51, _⟩ => ⟨S1x192x192x64x32, .f32⟩
  | .hbm, ⟨52, _⟩ => ⟨S1x192x192x64x32, .f32⟩
  | .hbm, ⟨53, _⟩ => ⟨S1x192x192x32x32, .f32⟩
  | .hbm, ⟨54, _⟩ => ⟨S_, .f32⟩
  | .hbm, ⟨55, _⟩ => ⟨S1x192x192x32x32, .f32⟩
  | .hbm, ⟨56, _⟩ => ⟨S1x192x192x32x32, .f32⟩
  | .hbm, ⟨57, _⟩ => ⟨S1x192x192x1024, .f32⟩
  | .hbm, ⟨58, _⟩ => ⟨S1x192x192x128, .f32⟩
  | .hbm, ⟨59, _⟩ => ⟨S1x1x1x128, .f32⟩
  | .hbm, ⟨60, _⟩ => ⟨S1x192x192x128, .f32⟩
  | .hbm, ⟨61, _⟩ => ⟨S1x192x192x128, .f32⟩
  | _, _ => ⟨S1x64x192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  reducesTo_S1x64x192x256_S1x64x192_d3 : S1x64x192x256.ReducesTo [3] S1x64x192
  h_S_ : 0 < S_.numel
  bcast_S1x64x192_S1x64x192x1_0_1_2 : S1x64x192.BroadcastsInDim S1x64x192x1 (![0, 1, 2] : Fin 3 → Fin S1x64x192x1.rank)
  bcast_S_S1x64x192x1 : S_.BroadcastsInDim S1x64x192x1 (![] : Fin 0 → Fin S1x64x192x1.rank)
  bcast_S1x64x192x1_S1x64x192x256_0_1_2_3 : S1x64x192x1.BroadcastsInDim S1x64x192x256 (![0, 1, 2, 3] : Fin 4 → Fin S1x64x192x256.rank)
  bcast_S256_S1x1x1x256_3 : S256.BroadcastsInDim S1x1x1x256 (![3] : Fin 1 → Fin S1x1x1x256.rank)
  bcast_S1x1x1x256_S1x64x192x256_0_1_2_3 : S1x1x1x256.BroadcastsInDim S1x64x192x256 (![0, 1, 2, 3] : Fin 4 → Fin S1x64x192x256.rank)
  transposes_S32x1x64x192_S1x192x64x32_1_3_2_0 : S32x1x64x192.Transposes [1, 3, 2, 0] S1x192x64x32
  bcast_S32_S1x1x1x32_3 : S32.BroadcastsInDim S1x1x1x32 (![3] : Fin 1 → Fin S1x1x1x32.rank)
  bcast_S1x1x1x32_S1x192x64x32_0_1_2_3 : S1x1x1x32.BroadcastsInDim S1x192x64x32 (![0, 1, 2, 3] : Fin 4 → Fin S1x192x64x32.rank)
  bcast_S1x192x64x32_S1x192x1x64x32_0_1_3_4 : S1x192x64x32.BroadcastsInDim S1x192x1x64x32 (![0, 1, 3, 4] : Fin 4 → Fin S1x192x1x64x32.rank)
  bcast_S1x192x64x32_S1x1x192x64x32_0_2_3_4 : S1x192x64x32.BroadcastsInDim S1x1x192x64x32 (![0, 2, 3, 4] : Fin 4 → Fin S1x1x192x64x32.rank)
  bcast_S1x192x1x64x32_S1x192x192x64x32_0_1_2_3_4 : S1x192x1x64x32.BroadcastsInDim S1x192x192x64x32 (![0, 1, 2, 3, 4] : Fin 5 → Fin S1x192x192x64x32.rank)
  bcast_S1x1x192x64x32_S1x192x192x64x32_0_1_2_3_4 : S1x1x192x64x32.BroadcastsInDim S1x192x192x64x32 (![0, 1, 2, 3, 4] : Fin 5 → Fin S1x192x192x64x32.rank)
  bcast_S_S1x192x192x32x32 : S_.BroadcastsInDim S1x192x192x32x32 (![] : Fin 0 → Fin S1x192x192x32x32.rank)
  shapeCasts_S1x192x192x32x32_S1x192x192x1024 : S1x192x192x32x32.ShapeCasts S1x192x192x1024
  bcast_S128_S1x1x1x128_3 : S128.BroadcastsInDim S1x1x1x128 (![3] : Fin 1 → Fin S1x1x1x128.rank)
  bcast_S1x1x1x128_S1x192x192x128_0_1_2_3 : S1x1x1x128.BroadcastsInDim S1x192x192x128 (![0, 1, 2, 3] : Fin 4 → Fin S1x192x192x128.rank)
  dot_S256x32_S1x64x192x256_S32x1x64x192_0_3_1_012_n_n_wf : DotDims.WF S256x32 S1x64x192x256 S32x1x64x192 [0] [3] [1] [0, 1, 2] [] []
  dot_S1x192x192x64x32_S1x192x192x64x32_S1x192x192x32x32_3_3_4_4_012_012_wf : DotDims.WF S1x192x192x64x32 S1x192x192x64x32 S1x192x192x32x32 [3] [3] [4] [4] [0, 1, 2] [0, 1, 2]
  dot_S1x192x192x1024_S1024x128_S1x192x192x128_3_0_012_1_n_n_wf : DotDims.WF S1x192x192x1024 S1024x128 S1x192x192x128 [3] [0] [0, 1, 2] [1] [] []

variable [Facts₀]

def dot_S256x32_S1x64x192x256_S32x1x64x192_0_3_1_012_n_n : DotDims S256x32 S1x64x192x256 S32x1x64x192 where
  lhsContracting := [0]
  rhsContracting := [3]
  lhsNonContracting := [1]
  rhsNonContracting := [0, 1, 2]
  lhsBatch := []
  rhsBatch := []
  wf := dot_S256x32_S1x64x192x256_S32x1x64x192_0_3_1_012_n_n_wf
def dot_S1x192x192x64x32_S1x192x192x64x32_S1x192x192x32x32_3_3_4_4_012_012 : DotDims S1x192x192x64x32 S1x192x192x64x32 S1x192x192x32x32 where
  lhsContracting := [3]
  rhsContracting := [3]
  lhsNonContracting := [4]
  rhsNonContracting := [4]
  lhsBatch := [0, 1, 2]
  rhsBatch := [0, 1, 2]
  wf := dot_S1x192x192x64x32_S1x192x192x64x32_S1x192x192x32x32_3_3_4_4_012_012_wf
def dot_S1x192x192x1024_S1024x128_S1x192x192x128_3_0_012_1_n_n : DotDims S1x192x192x1024 S1024x128 S1x192x192x128 where
  lhsContracting := [3]
  rhsContracting := [0]
  lhsNonContracting := [0, 1, 2]
  rhsNonContracting := [1]
  lhsBatch := []
  rhsBatch := []
  wf := dot_S1x192x192x1024_S1024x128_S1x192x192x128_3_0_012_1_n_n_wf

class Facts : Prop extends Facts₀ where

variable [Facts]
-- ==== Proof.Spec.lean ====
/-
  The mathematics of the outer-product-mean block, as functions on coordinates over the extended reals.

  A row `x` of 256 channels is layer-normalised: with mean `μ = (∑ x) / 256` and variance
  `σ² = (∑ (x - μ)²) / 256`, entry `c` becomes `(x c - μ) · rsqrt (σ² + ε) · γ c + β c`.
  A projection of the normalised rows by a weight matrix `W` and a bias `b` is kept in the layout
  (channel `h`, residue `r`, sequence `s`).
  From the two projections `L`, `R` the result at residues `(i, j)` and output channel `p` is
      ∑_{d, e} (mean_s L[d,i,s] · R[d,j,s] · L[e,i,s] · R[e,j,s]) · Wo[32 d + e, p] + bo[p].
  Two arrangements of that sum are stated here: one that accumulates eight slabs of 128 flat rows
  `32 d + e` (four values of `d` a slab), the factor 1/64 folded into the weights and the four factors
  grouped as `(L_d L_e)(R_d R_e)`; and one that sums all 1024 flat rows at once, divides the sum over `s`
  by 64, and groups the factors as `(L_d R_d)(L_e R_e)`. `Algebra.lean` proves them equal.
-/
import Idealize.ShloMosaic.PureOps.Ideal
import Idealize.ShloMosaic.Lib.ValueIdx

noncomputable section

namespace Cert.Opm

open Idealize.ShloMosaic Idealize.ShloMosaic.ValueIdx

/-- The shapes of the arguments, of a projection and of the result. -/
abbrev SX : Shape := ⟨4, ![1, 64, 192, 256]⟩
abbrev SC : Shape := ⟨1, ![256]⟩
abbrev SW : Shape := ⟨2, ![256, 32]⟩
abbrev SB : Shape := ⟨1, ![32]⟩
abbrev SWo : Shape := ⟨2, ![1024, 128]⟩
abbrev SBo : Shape := ⟨1, ![128]⟩
abbrev SP : Shape := ⟨3, ![32, 192, 64]⟩
abbrev SZ3 : Shape := ⟨3, ![192, 192, 128]⟩
abbrev SZ : Shape := ⟨4, ![1, 192, 192, 128]⟩

/-- The float words the two programs share: 256, the layer norm's ε, and the two spellings of the
    mean over the 64 sequences (the factor 1/64 and the divisor 64). -/
abbrev w256 : EReal := Ideal.ofBits .f32 0x43800000#32
abbrev wEps : EReal := Ideal.ofBits .f32 0x3727C5AC#32
abbrev wInv64 : EReal := Ideal.ofBits .f32 0x3C800000#32
abbrev w64 : EReal := Ideal.ofBits .f32 0x42800000#32

/-- The mean of a row of 256 channels. -/
def rowMean (x : Fin 256 → EReal) : EReal := Ideal.div (∑ k : Fin 256, x k) w256

/-- The variance of a row of 256 channels about its mean. -/
def rowVar (x : Fin 256 → EReal) : EReal :=
  Ideal.div (∑ k : Fin 256, (x k - rowMean x) * (x k - rowMean x)) w256

/-- Layer normalisation of one row, entry `c`. -/
def lnRow (x γ β : Fin 256 → EReal) (c : Fin 256) : EReal :=
  (x c - rowMean x) * Ideal.rsqrt (rowVar x + wEps) * γ c + β c

/-- The normalised input at sequence `s`, residue `r`, channel `c`. -/
def xnAt (X : FVec Ideal SX .f32) (γ β : FVec Ideal SC .f32) (s : Fin 64) (r : Fin 192) (c : Fin 256) : EReal :=
  lnRow (fun k => X (ix4 0 s r k)) (fun k => γ (ix1 k)) (fun k => β (ix1 k)) c

/-- A projection at hidden channel `h`, residue `r`, sequence `s`. -/
def projAt (X : FVec Ideal SX .f32) (γ β : FVec Ideal SC .f32) (W : FVec Ideal SW .f32) (b : FVec Ideal SB .f32)
    (h : Fin 32) (r : Fin 192) (s : Fin 64) : EReal :=
  (∑ k : Fin 256, xnAt X γ β s r k * W (ix2 k h)) + b (ix1 h)

/-- The projection as an array in the layout (h, r, s). -/
def proj (X : FVec Ideal SX .f32) (γ β : FVec Ideal SC .f32) (W : FVec Ideal SW .f32) (b : FVec Ideal SB .f32) :
    FVec Ideal SP .f32 :=
  fun j => projAt X γ β W b (j 0) (j 1) (j 2)

theorem proj_ix (X : FVec Ideal SX .f32) (γ β : FVec Ideal SC .f32) (W : FVec Ideal SW .f32) (b : FVec Ideal SB .f32)
    (h : Fin 32) (r : Fin 192) (s : Fin 64) : proj X γ β W b (ix3 h r s) = projAt X γ β W b h r s := rfl

/-- The output weights with the mean's factor 1/64 folded in. -/
def scaled (Wo : FVec Ideal SWo .f32) : FVec Ideal SWo .f32 := fun y => Wo y * wInv64

/-! ## The slab-by-slab arrangement -/

/-- The hidden pair `(d, e)` of flat row `k` of slab `n`: `d = 4 n + k / 32`, `e = k % 32`. -/
def dOf (n : ℕ) (k : Fin 128) : Fin 32 := ⟨(4 * n + k.val / 32) % 32, Nat.mod_lt _ (by decide)⟩
def eOf (k : Fin 128) : Fin 32 := ⟨k.val % 32, Nat.mod_lt _ (by decide)⟩

/-- Entry `(i, j, k)` of slab `n` of the outer products: the sum over the sequences of
    `(L_d L_e)(i, s) · (R_d R_e)(j, s)`. -/
def catAt (L R : FVec Ideal SP .f32) (n : ℕ) (i j : Fin 192) (k : Fin 128) : EReal :=
  ∑ s : Fin 64, (L (ix3 (dOf n k) i s) * L (ix3 (eOf k) i s)) * (R (ix3 (dOf n k) j s) * R (ix3 (eOf k) j s))

/-- Slab `n`'s contribution to the result: its 128 flat rows against rows `128 n + k` of the weights. -/
def contribAt (L R : FVec Ideal SP .f32) (Ws : FVec Ideal SWo .f32) (n : ℕ) (i j : Fin 192) (p : Fin 128) : EReal :=
  ∑ k : Fin 128, catAt L R n i j k * Ws (ix2 ⟨(128 * n + k.val) % 1024, Nat.mod_lt _ (by decide)⟩ p)

/-- The first `n` slabs accumulated. -/
def accAt (L R : FVec Ideal SP .f32) (Ws : FVec Ideal SWo .f32) (n : ℕ) (i j : Fin 192) (p : Fin 128) : EReal :=
  ∑ q ∈ Finset.range n, contribAt L R Ws q i j p

/-- The result, slab by slab: all eight slabs and the bias. -/
def zSlabAt (L R : FVec Ideal SP .f32) (Ws : FVec Ideal SWo .f32) (bo : FVec Ideal SBo .f32)
    (i j : Fin 192) (p : Fin 128) : EReal :=
  accAt L R Ws 8 i j p + bo (ix1 p)

/-! ## The all-at-once arrangement -/

/-- The mean over the sequences of `(L_d R_d)(L_e R_e)` at flat row `K = 32 d + e`. -/
def outerAt (L R : FVec Ideal SP .f32) (i j : Fin 192) (K : Fin 1024) : EReal :=
  Ideal.div
    (∑ s : Fin 64,
      (L (ix3 ⟨K.val / 32, by omega⟩ i s) * R (ix3 ⟨K.val / 32, by omega⟩ j s))
        * (L (ix3 ⟨K.val % 32, Nat.mod_lt _ (by decide)⟩ i s) * R (ix3 ⟨K.val % 32, Nat.mod_lt _ (by decide)⟩ j s)))
    w64

/-- The result, all 1024 flat rows at once, and the bias. -/
def zFlatAt (L R : FVec Ideal SP .f32) (Wo : FVec Ideal SWo .f32) (bo : FVec Ideal SBo .f32)
    (i j : Fin 192) (p : Fin 128) : EReal :=
  (∑ K : Fin 1024, outerAt L R i j K * Wo (ix2 K p)) + bo (ix1 p)

/-- The result array of the whole block, from the nine arguments. -/
def G (X : FVec Ideal SX .f32) (γ β : FVec Ideal SC .f32) (Wl : FVec Ideal SW .f32) (bl : FVec Ideal SB .f32)
    (Wr : FVec Ideal SW .f32) (br : FVec Ideal SB .f32) (Wo : FVec Ideal SWo .f32) (bo : FVec Ideal SBo .f32) :
    FVec Ideal SZ .f32 :=
  fun y => zFlatAt (proj X γ β Wl bl) (proj X γ β Wr br) Wo bo (y 1) (y 2) (y 3)

theorem G_ix (X : FVec Ideal SX .f32) (γ β : FVec Ideal SC .f32) (Wl : FVec Ideal SW .f32) (bl : FVec Ideal SB .f32)
    (Wr : FVec Ideal SW .f32) (br : FVec Ideal SB .f32) (Wo : FVec Ideal SWo .f32) (bo : FVec Ideal SBo .f32)
    (i j : Fin 192) (p : Fin 128) :
    G X γ β Wl bl Wr br Wo bo (ix4 0 i j p) = zFlatAt (proj X γ β Wl bl) (proj X γ β Wr br) Wo bo i j p := rfl

end Cert.Opm

end
-- ==== Proof.KHost.lean ====
/-
  The host operations around the two kernels, read at the buffers the kernels and the result use.
  Before the first kernel the input loses its leading unit axis; between the kernels the output weights are
  multiplied by 1/64 (and change format, which is the identity on the extended reals); after the second kernel the
  result gains a leading unit axis. Nothing else the regions read is written by a host operation, and the first
  region's outputs reach the second region untouched.
-/
import proofs.«414971_j36060545417655_3_alg».proof.Proof.Gen.KernelIdeal.Frame
import proofs.«414971_j36060545417655_3_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.OPM

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Before the first region only the reshape writes, and it writes main_v0: every other buffer is as launched. -/
theorem V1_of_ne (c : Dev nD) (b : Ref sig .tc) (hb : b ≠ main_v0) :
    V1 m ρ c b = m ((c : Thread nD τ).loc b) :=
  calc V1 m ρ c b
    _ = W0 m ρ c (Proc.devRef .tc b) :=
        StableHlo.after_of_forall_not_mem (b := Proc.devRef .tc b) _ _ (List.forall_iff_forall_mem.mp (by
          simp only [hostOps0, List.Forall, StableHlo.reshape_writes, Finset.mem_singleton]
          exact StableHlo.devRef_ne_of_ne hb))
    _ = m ((c : Thread nD τ).loc b) := rfl

/-- Between the regions the host writes main_cst, main_v2, main_v3 and main_v4 only: every other buffer is as the
    first region left it. -/
theorem V3_of_ne (c : Dev nD) (b : Ref sig .tc) (h0 : b ≠ main_cst) (h1 : b ≠ main_v2) (h2 : b ≠ main_v3)
    (h3 : b ≠ main_v4) : V3 m ρ c b = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      Finset.mem_singleton]
    exact ⟨StableHlo.devRef_ne_of_ne h0, StableHlo.devRef_ne_of_ne h1, StableHlo.devRef_ne_of_ne h2,
      StableHlo.devRef_ne_of_ne h3⟩))

/-- The first region's first operand is the input with its unit axis dropped. -/
theorem V1_v0 (c : Dev nD) (s : Fin 64) (r : Fin 192) (k : Fin 256) :
    V1 m ρ c main_v0 (ix3 s r k) = m ((c : Thread nD τ).loc main_arg0) (ix4 0 s r k) := by
  have e : (V1 m ρ c main_v0 : S64x192x256.Idx → EReal)
      = shapeCast S64x192x256 (m ((c : Thread nD τ).loc main_arg0) : S1x64x192x256.Idx → EReal) shapeCasts_S1x64x192x256_S64x192x256 := by
    dsimp only [V1, W1, hostOps0]; after_results; rfl
  rw [e]
  exact shapeCast_1abc_abc_apply _ _ s r k
theorem V1_arg1 (c : Dev nD) : V1 m ρ c main_arg1 = m ((c : Thread nD τ).loc main_arg1) :=
  V1_of_ne m ρ c main_arg1 (by decide)
theorem V1_arg2 (c : Dev nD) : V1 m ρ c main_arg2 = m ((c : Thread nD τ).loc main_arg2) :=
  V1_of_ne m ρ c main_arg2 (by decide)
theorem V1_arg3 (c : Dev nD) : V1 m ρ c main_arg3 = m ((c : Thread nD τ).loc main_arg3) :=
  V1_of_ne m ρ c main_arg3 (by decide)
theorem V1_arg4 (c : Dev nD) : V1 m ρ c main_arg4 = m ((c : Thread nD τ).loc main_arg4) :=
  V1_of_ne m ρ c main_arg4 (by decide)
theorem V1_arg5 (c : Dev nD) : V1 m ρ c main_arg5 = m ((c : Thread nD τ).loc main_arg5) :=
  V1_of_ne m ρ c main_arg5 (by decide)
theorem V1_arg6 (c : Dev nD) : V1 m ρ c main_arg6 = m ((c : Thread nD τ).loc main_arg6) :=
  V1_of_ne m ρ c main_arg6 (by decide)

/-- The second region finds the first region's two output arrays as that region left them. -/
theorem V3_v1_0 (c : Dev nD) : V3 m ρ c main_v1_0 = (dat0 (V1 m ρ) c).arrAt 7 cfg0.N :=
  (V3_of_ne m ρ c main_v1_0 (by decide) (by decide) (by decide) (by decide)).trans (W2_arr m ρ c 7)
theorem V3_v1_1 (c : Dev nD) : V3 m ρ c main_v1_1 = (dat0 (V1 m ρ) c).arrAt 8 cfg0.N :=
  (V3_of_ne m ρ c main_v1_1 (by decide) (by decide) (by decide) (by decide)).trans (W2_arr m ρ c 8)
/-- The weight operand of the second region is the output weights times 1/64. -/
theorem V3_v4 (c : Dev nD) : V3 m ρ c main_v4 = Opm.scaled (m ((c : Thread nD τ).loc main_arg7)) := by
  have e : (V3 m ρ c main_v4 : S1024x128.Idx → EReal)
      = truncf .bf16 (mulf (W2 m ρ c (Proc.devRef .tc main_arg7) : S1024x128.Idx → EReal)
          (broadcastInDim S1024x128 ![] bcast_S_S1024x128 (constant (F := Ideal) S_ .f32 0x3C800000#32)))
          bitsLt_bf16_f32 := by
    dsimp only [V3, W3, hostOps1]; after_results
  have e7 : W2 m ρ c (Proc.devRef .tc main_arg7) = m ((c : Thread nD τ).loc main_arg7) :=
    (W2_of_ne m ρ c main_arg7 (by decide)).trans (V1_of_ne m ρ c main_arg7 (by decide))
  rw [e, e7]
  funext y
  rfl
theorem V3_arg8 (c : Dev nD) : V3 m ρ c main_arg8 = m ((c : Thread nD τ).loc main_arg8) :=
  (V3_of_ne m ρ c main_arg8 (by decide) (by decide) (by decide) (by decide)).trans
    ((W2_of_ne m ρ c main_arg8 (by decide)).trans (V1_of_ne m ρ c main_arg8 (by decide)))

/-- The result is the second region's output array with a leading unit axis. -/
theorem W5_v6 (c : Dev nD) (i j : Fin 192) (p : Fin 128) :
    W5 m ρ c (Proc.devRef .tc main_v6) (ix4 0 i j p) = (dat1 (V3 m ρ) c).arrAt 4 cfg1.N (ix3 i j p) := by
  have e : (W5 m ρ c (Proc.devRef .tc main_v6) : S1x192x192x128.Idx → EReal)
      = broadcastInDim S1x192x192x128 ![1, 2, 3] bcast_S192x192x128_S1x192x192x128_1_2_3
          (W4 m ρ c (Proc.devRef .tc main_v5) : S192x192x128.Idx → EReal) := by
    dsimp only [W5, hostOps2]; after_results
  have e5 : W4 m ρ c (Proc.devRef .tc main_v5) = (dat1 (V3 m ρ) c).arrAt 4 cfg1.N := W4_arr m ρ c 4
  rw [e, e5]
  exact broadcastInDim_apply _ _ _ _ _ (fun a => by fin_cases a <;> rfl)

end Cert.KernelIdeal.OPM

end
-- ==== Proof.K0Pay.lean ====
/-
  The first kernel's body at one entry of its two output blocks.
  A block holds 64 sequences × 96 residues × 256 channels. Every row of 256 channels is layer-normalised,
  the 6144 normalised rows are multiplied by a 256 × 32 weight matrix, a bias is added, and the result is
  re-laid from (sequence, residue, hidden) to (hidden, residue, sequence).
-/
import proofs.«414971_j36060545417655_3_alg».proof.Proof.Gen.KernelIdeal.Skeleton
import proofs.«414971_j36060545417655_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.OPM

open Cert.KernelIdeal Cert.KernelIdeal.Gen Idealize.ShloMosaic Idealize.ShloMosaic.TcCoe Idealize.ShloMosaic.ValueIdx Idealize.SL.Sem
open Idealize.ShloMosaic.Pipeline (Dat)

/-! ## The operations of the body that are not pointwise, each read at one coordinate -/

/-- The sum over the 256 channels of row (s, r). -/
theorem laneSum_apply (src : FVec Ideal S64x96x256 .f32) (hr : S64x96x256.Reduces [2] S64x96) (hφ : FKind.Formats .f32)
    (hacc : (0x00000000#32 : BitVec 32) = 0x00000000#32) (s : Fin 64) (r : Fin 96) :
    multiReduction (F := Ideal) .add [2] S64x96 src 0x00000000#32 hr hφ hacc (ix2 s r)
      = ∑ k : Fin 256, src (ix3 s r k) := by
  refine (Ideal.multiReduction_add_single src 0x00000000#32 hr hφ hacc (ix2 s r)).trans ?_
  refine Finset.sum_congr rfl fun k _ => congrArg src ?_
  funext c
  apply Fin.ext
  match c with
  | ⟨0, _⟩ => rfl
  | ⟨1, _⟩ => rfl
  | ⟨2, _⟩ => rfl

/-- A [64, 96] array given a trailing unit axis reads, at (s, r, u), the operand at (s, r). -/
theorem keepdims_apply {α : Type} (v : S64x96.Idx → α) (h : S64x96.ShapeCasts S64x96x1) (s : Fin 64) (r : Fin 96) (u : Fin 1) :
    shapeCast S64x96x1 v h (ix3 s r u) = v (ix2 s r) :=
  shapeCast_apply v h _ _ (by
    have hu : u.val = 0 := by omega
    rw [Shape.rowMajor_val_three, Shape.rowMajor_val_two]
    show s.val * 96 + r.val = (s.val * 96 + r.val) * 1 + u.val
    omega)

/-- A [64, 96, 1] column broadcast along the channels reads, at (s, r, k), the column at (s, r, 0). -/
theorem bcastCol_apply {α : Type} (v : S64x96x1.Idx → α) (h : S64x96x1.Broadcasts S64x96x256) (s : Fin 64) (r : Fin 96) (k : Fin 256) :
    broadcastTo S64x96x256 v h (ix3 s r k) = v (ix3 s r (0 : Fin 1)) := by
  refine broadcastTo_apply v h (ix3 s r k) (ix3 s r (0 : Fin 1)) fun a => ?_
  match a with
  | ⟨0, _⟩ => rfl
  | ⟨1, _⟩ => rfl
  | ⟨2, _⟩ => rfl

/-- A [256] vector viewed as [1, 1, 256] reads, at (u, u', k), the vector at k. -/
theorem row3_apply {α : Type} (v : S256.Idx → α) (h : S256.ShapeCasts S1x1x256) (u u' : Fin 1) (k : Fin 256) :
    shapeCast S1x1x256 v h (ix3 u u' k) = v (ix1 k) :=
  shapeCast_apply v h _ _ (by
    have hu : u.val = 0 := by omega
    have hu' : u'.val = 0 := by omega
    rw [Shape.rowMajor_val_three, Shape.rowMajor_val_one]
    show k.val = (u.val * 1 + u'.val) * 256 + k.val
    omega)

/-- A [1, 1, 256] row broadcast over the 64 × 96 rows reads, at (s, r, k), the row at (0, 0, k). -/
theorem bcastRow_apply {α : Type} (v : S1x1x256.Idx → α) (h : S1x1x256.Broadcasts S64x96x256) (s : Fin 64) (r : Fin 96) (k : Fin 256) :
    broadcastTo S64x96x256 v h (ix3 s r k) = v (ix3 (0 : Fin 1) (0 : Fin 1) k) := by
  refine broadcastTo_apply v h (ix3 s r k) (ix3 (0 : Fin 1) (0 : Fin 1) k) fun a => ?_
  match a with
  | ⟨0, _⟩ => rfl
  | ⟨1, _⟩ => rfl
  | ⟨2, _⟩ => rfl

/-- The flat row 96 s + r of the 64 × 96 rows. -/
def flatRow (s : Fin 64) (r : Fin 96) : Fin 6144 := ⟨96 * s.val + r.val, by omega⟩

/-- The [64, 96, 256] block flattened to [6144, 256] reads, at (96 s + r, k), the block at (s, r, k). -/
theorem flatten_apply {α : Type} (v : S64x96x256.Idx → α) (h : S64x96x256.ShapeCasts S6144x256) (s : Fin 64) (r : Fin 96) (k : Fin 256) :
    shapeCast S6144x256 v h (ix2 (flatRow s r) k) = v (ix3 s r k) :=
  shapeCast_apply v h _ _ (by
    rw [Shape.rowMajor_val_three, Shape.rowMajor_val_two]
    show (s.val * 96 + r.val) * 256 + k.val = (96 * s.val + r.val) * 256 + k.val
    omega)

/-- The [6144, 32] product unflattened to [64, 96, 32] reads, at (s, r, h), the product at (96 s + r, h). -/
theorem unflatten_apply {α : Type} (v : S6144x32.Idx → α) (hc : S6144x32.ShapeCasts S64x96x32) (s : Fin 64) (r : Fin 96) (h : Fin 32) :
    shapeCast S64x96x32 v hc (ix3 s r h) = v (ix2 (flatRow s r) h) :=
  shapeCast_apply v hc _ _ (by
    rw [Shape.rowMajor_val_three, Shape.rowMajor_val_two]
    show (96 * s.val + r.val) * 32 + h.val = (s.val * 96 + r.val) * 32 + h.val
    omega)

/-- The re-laying (sequence, residue, hidden) → (hidden, residue, sequence) reads, at (h, r, s), the operand at (s, r, h). -/
theorem relay_apply {α : Type} (v : S64x96x32.Idx → α) (ht : S64x96x32.Transposes [2, 1, 0] S32x96x64) (h : Fin 32) (r : Fin 96) (s : Fin 64) :
    transpose S32x96x64 [2, 1, 0] v ht (ix3 h r s) = v (ix3 s r h) :=
  transpose_apply _ v ht _ _ fun c => match c with | ⟨0, _⟩ => rfl | ⟨1, _⟩ => rfl | ⟨2, _⟩ => rfl

/-- The reciprocal square root of a vector reads, at an index, that of the element. -/
theorem rsqrt_apply {s : Shape} {φ : FTy} (a : FVec Ideal s φ) (i : s.Idx) : rsqrt a i = Ideal.rsqrt (a i) := rfl

/-! ## The product of the 6144 rows with a 256 × 32 matrix, read at one entry -/

theorem lhs_proj_0 (i : S6144x32.Idx) (q : dot_S6144x256_S256x32_S6144x32_1_0_0_1_n_n.contr.Idx) :
    (dot_S6144x256_S256x32_S6144x32_1_0_0_1_n_n.lhsIdx i q 0).val = (i 0).val := by
  unfold DotDims.lhsIdx
  rw [dif_neg (show ¬(0 : Fin S6144x256.rank) ∈ dot_S6144x256_S256x32_S6144x32_1_0_0_1_n_n.lhsBatch by decide), dif_pos (show (0 : Fin S6144x256.rank) ∈ dot_S6144x256_S256x32_S6144x32_1_0_0_1_n_n.lhsNonContracting by decide)]
  rfl
theorem lhs_proj_1 (i : S6144x32.Idx) (q : dot_S6144x256_S256x32_S6144x32_1_0_0_1_n_n.contr.Idx) :
    (dot_S6144x256_S256x32_S6144x32_1_0_0_1_n_n.lhsIdx i q 1).val = (q ⟨0, by decide⟩).val :=
  dot_S6144x256_S256x32_S6144x32_1_0_0_1_n_n.lhsIdx_val_of_single rfl i q
theorem rhs_proj_0 (i : S6144x32.Idx) (q : dot_S6144x256_S256x32_S6144x32_1_0_0_1_n_n.contr.Idx) :
    (dot_S6144x256_S256x32_S6144x32_1_0_0_1_n_n.rhsIdx i q 0).val = (q ⟨0, by decide⟩).val :=
  dot_S6144x256_S256x32_S6144x32_1_0_0_1_n_n.rhsIdx_val_of_single rfl i q
theorem rhs_proj_1 (i : S6144x32.Idx) (q : dot_S6144x256_S256x32_S6144x32_1_0_0_1_n_n.contr.Idx) :
    (dot_S6144x256_S256x32_S6144x32_1_0_0_1_n_n.rhsIdx i q 1).val = (i 1).val := by
  unfold DotDims.rhsIdx
  rw [dif_neg (show ¬(1 : Fin S256x32.rank) ∈ dot_S6144x256_S256x32_S6144x32_1_0_0_1_n_n.rhsBatch by decide), dif_pos (show (1 : Fin S256x32.rank) ∈ dot_S6144x256_S256x32_S6144x32_1_0_0_1_n_n.rhsNonContracting by decide)]
  rfl

/-- Entry (p, h) of the product into a zero accumulator: the sum over the 256 channels of row p against column h. -/
theorem proj_apply {φ₁ φ₂ : FTy} (a : FVec Ideal S6144x256 φ₁) (w : FVec Ideal S256x32 φ₂) (p : Fin 6144) (h : Fin 32) :
    matmul (F := Ideal) dot_S6144x256_S256x32_S6144x32_1_0_0_1_n_n none a w (constant (F := Ideal) S6144x32 .f32 0x00000000#32) (ix2 p h)
      = ∑ k : Fin 256, a (ix2 p k) * w (ix2 k h) := by
  simp only [matmul]
  rw [Ideal.matmul_constant_zero_apply, ← Equiv.sum_comp (ValueIdx.contrEquiv1 dot_S6144x256_S256x32_S6144x32_1_0_0_1_n_n 256 rfl rfl).symm]
  refine Finset.sum_congr rfl fun k _ => ?_
  have hk := ValueIdx.contrEquiv1_symm_val dot_S6144x256_S256x32_S6144x32_1_0_0_1_n_n 256 rfl rfl k
  have el : dot_S6144x256_S256x32_S6144x32_1_0_0_1_n_n.lhsIdx (ix2 p h) ((ValueIdx.contrEquiv1 dot_S6144x256_S256x32_S6144x32_1_0_0_1_n_n 256 rfl rfl).symm k) = ix2 p k := funext fun c => Fin.ext (by
    match c with
    | ⟨0, _⟩ => exact lhs_proj_0 _ _
    | ⟨1, _⟩ => exact (lhs_proj_1 _ _).trans hk)
  have er : dot_S6144x256_S256x32_S6144x32_1_0_0_1_n_n.rhsIdx (ix2 p h) ((ValueIdx.contrEquiv1 dot_S6144x256_S256x32_S6144x32_1_0_0_1_n_n 256 rfl rfl).symm k) = ix2 k h := funext fun c => Fin.ext (by
    match c with
    | ⟨0, _⟩ => exact (rhs_proj_0 _ _).trans hk
    | ⟨1, _⟩ => exact rhs_proj_1 _ _)
  rw [el, er]

/-! ## The normalised rows -/

/-- Channel k of flat row 96 s + r of the normalised block is the layer norm of row (s, r) of the block. -/
theorem norm_apply (x0 : Vec Ideal S64x96x256 .f32) (x1 x2 : Vec Ideal S256 .f32) (s : Fin 64) (r : Fin 96) (k : Fin 256) :
    k0_pay3 (F := Ideal) x0 x1 x2 (ix2 (flatRow s r) k)
      = Opm.lnRow (fun k' => x0 (ix3 s r k')) (fun k' => x1 (ix1 k')) (fun k' => x2 (ix1 k')) k := by
  unfold k0_pay3
  -- the pointwise operations and the layout operations, outermost first, down to the two lane sums
  simp only [truncf_apply, flatten_apply, addf_apply, mulf_apply, subf_apply, divf_apply, rsqrt_apply, broadcast_apply,
    bcastRow_apply, row3_apply, bcastCol_apply, keepdims_apply, shapeCast_self]
  -- the mean's sum, then the variance's sum, whose summand holds the mean again
  rw [laneSum_apply, laneSum_apply]
  simp only [mulf_apply, subf_apply, divf_apply, broadcast_apply, bcastCol_apply, keepdims_apply]
  rw [laneSum_apply]
  rfl

/-- Entry (h, r, s) of the left projection's block: the normalised row (s, r) against column h of the weights, plus the bias. -/
theorem left_pay (x0 : Vec Ideal S64x96x256 .f32) (x1 x2 : Vec Ideal S256 .f32) (x3 : Vec Ideal S256x32 .f32) (x4 : Vec Ideal S32 .f32)
    (h : Fin 32) (r : Fin 96) (s : Fin 64) :
    k0_pay1 (F := Ideal) (k0_pay4 x0 x1 x2 x3 x4) (ix3 h r s)
      = (∑ k : Fin 256, Opm.lnRow (fun k' => x0 (ix3 s r k')) (fun k' => x1 (ix1 k')) (fun k' => x2 (ix1 k')) k * x3 (ix2 k h))
        + x4 (ix1 h) := by
  unfold k0_pay1 k0_pay4
  -- (h, r, s) ← (s, r, h) ← (96 s + r, h); there the product's entry plus the bias's entry h
  rw [relay_apply, unflatten_apply, addf_apply, proj_apply, broadcastTo_1b_ab_apply, shapeCast_a_1a_apply]
  simp only [truncf_apply, norm_apply]

/-- Entry (h, r, s) of the right projection's block. -/
theorem right_pay (x0 : Vec Ideal S64x96x256 .f32) (x1 x2 : Vec Ideal S256 .f32) (x5 : Vec Ideal S256x32 .f32) (x6 : Vec Ideal S32 .f32)
    (h : Fin 32) (r : Fin 96) (s : Fin 64) :
    k0_pay2 (F := Ideal) (k0_pay5 x0 x1 x2 x5) (k0_pay6 x6) (ix3 h r s)
      = (∑ k : Fin 256, Opm.lnRow (fun k' => x0 (ix3 s r k')) (fun k' => x1 (ix1 k')) (fun k' => x2 (ix1 k')) k * x5 (ix2 k h))
        + x6 (ix1 h) := by
  unfold k0_pay2 k0_pay5 k0_pay6
  -- the same reading; here the bias is added after the product is formed
  rw [relay_apply, unflatten_apply, addf_apply, proj_apply, broadcastTo_1b_ab_apply, shapeCast_a_1a_apply]
  simp only [truncf_apply, norm_apply]

end Cert.KernelIdeal.OPM

end
-- ==== Proof.K0Arr.lean ====
/-
  The first kernel's two output arrays after its region.
  The grid has two points; point t handles residues 96 t … 96 t + 95 of all 64 sequences and writes block t
  (all 32 hidden channels, those 96 residues, all 64 sequences) of each projection. The two blocks tile the
  array, so each array ends as the projection of the whole normalised input.
-/
import proofs.«414971_j36060545417655_3_alg».proof.Proof.Gen.KernelIdeal.Frame
import proofs.«414971_j36060545417655_3_alg».proof.Proof.K0Pay
import Idealize.ShloMosaic.Lib.Pipeline.Value

set_option maxRecDepth 16384

noncomputable section

namespace Cert.KernelIdeal.OPM

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The index maps and the input blocks -/

/-- Zero offsets, however many axes: the body loads and stores its staging buffers whole. -/
theorem arr0_zeros1 : (![0] : Fin 1 → Nat) = fun _ => 0 := funext fun a => by fin_cases a <;> rfl
theorem arr0_zeros2 : (![0, 0] : Fin 2 → Nat) = fun _ => 0 := funext fun a => by fin_cases a <;> rfl
theorem arr0_zeros3 : (![0, 0, 0] : Fin 3 → Nat) = fun _ => 0 := funext fun a => by fin_cases a <;> rfl

/-- The block index of every window at grid point t, decided once over the two points: the operand of rows and the two
    outputs move along their residue axis with t; the parameters' windows are their whole arrays. -/
theorem arr0_block_index : ∀ t : Fin cfg0.N,
    win0_0.index t (0 : Fin 3) = 0 ∧ win0_0.index t (1 : Fin 3) = t.val ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = 0 ∧ win0_7.index t (1 : Fin 3) = t.val ∧ win0_7.index t (2 : Fin 3) = 0
    ∧ win0_8.index t (0 : Fin 3) = 0 ∧ win0_8.index t (1 : Fin 3) = t.val ∧ win0_8.index t (2 : Fin 3) = 0 :=
  (by decide +kernel : ∀ t : Fin grid0.N, _)

/-- The grid has two points. -/
theorem arr0_point_lt (t : Fin cfg0.N) : t.val < 2 := t.isLt

/-- The first operand's block at point t is residues 96 t … 96 t + 95 of all sequences and channels. -/
theorem arr0_rows (c : Dev nD) (t : Fin cfg0.N) (s : Fin 64) (r : Fin 96) (k : Fin 256) :
    iblk0 V c 0 t (ix3 s r k) = V c main_v0 (ix3 s ⟨96 * t.val + r.val, by have := arr0_point_lt t; omega⟩ k) := by
  obtain ⟨e0, e1, e2, -⟩ := arr0_block_index t
  show V c main_v0 (((cfg0.win 0).blk t).view.emb (ix3 s r k)) = _
  congr 1
  funext a
  apply Fin.ext
  match a with
  | ⟨0, _⟩ => show win0_0.index t (0 : Fin 3) * 64 + 1 * s.val = s.val; omega
  | ⟨1, _⟩ => show win0_0.index t (1 : Fin 3) * 96 + 1 * r.val = 96 * t.val + r.val; omega
  | ⟨2, _⟩ => show win0_0.index t (2 : Fin 3) * 256 + 1 * k.val = k.val; omega

/-! The scale, the shift, the two weight matrices and the two biases are read whole at every point. -/

theorem arr0_whole_1 (c : Dev nD) (t : Fin cfg0.N) (k : Fin 256) :
    iblk0 V c 1 t (ix1 k) = V c main_arg1 (ix1 k) := by
  obtain ⟨-, -, -, e0, -⟩ := arr0_block_index t
  show V c main_arg1 (((cfg0.win 1).blk t).view.emb (ix1 k)) = _
  congr 1
  funext a
  apply Fin.ext
  match a with
  | ⟨0, _⟩ => show win0_1.index t (0 : Fin 1) * 256 + 1 * k.val = k.val; omega

theorem arr0_whole_2 (c : Dev nD) (t : Fin cfg0.N) (k : Fin 256) :
    iblk0 V c 2 t (ix1 k) = V c main_arg2 (ix1 k) := by
  obtain ⟨-, -, -, -, e0, -⟩ := arr0_block_index t
  show V c main_arg2 (((cfg0.win 2).blk t).view.emb (ix1 k)) = _
  congr 1
  funext a
  apply Fin.ext
  match a with
  | ⟨0, _⟩ => show win0_2.index t (0 : Fin 1) * 256 + 1 * k.val = k.val; omega

theorem arr0_whole_3 (c : Dev nD) (t : Fin cfg0.N) (k : Fin 256) (h : Fin 32) :
    iblk0 V c 3 t (ix2 k h) = V c main_arg3 (ix2 k h) := by
  obtain ⟨-, -, -, -, -, e0, e1, -⟩ := arr0_block_index t
  show V c main_arg3 (((cfg0.win 3).blk t).view.emb (ix2 k h)) = _
  congr 1
  funext a
  apply Fin.ext
  match a with
  | ⟨0, _⟩ => show win0_3.index t (0 : Fin 2) * 256 + 1 * k.val = k.val; omega
  | ⟨1, _⟩ => show win0_3.index t (1 : Fin 2) * 32 + 1 * h.val = h.val; omega

theorem arr0_whole_4 (c : Dev nD) (t : Fin cfg0.N) (h : Fin 32) :
    iblk0 V c 4 t (ix1 h) = V c main_arg4 (ix1 h) := by
  obtain ⟨-, -, -, -, -, -, -, e0, -⟩ := arr0_block_index t
  show V c main_arg4 (((cfg0.win 4).blk t).view.emb (ix1 h)) = _
  congr 1
  funext a
  apply Fin.ext
  match a with
  | ⟨0, _⟩ => show win0_4.index t (0 : Fin 1) * 32 + 1 * h.val = h.val; omega

theorem arr0_whole_5 (c : Dev nD) (t : Fin cfg0.N) (k : Fin 256) (h : Fin 32) :
    iblk0 V c 5 t (ix2 k h) = V c main_arg5 (ix2 k h) := by
  obtain ⟨-, -, -, -, -, -, -, -, e0, e1, -⟩ := arr0_block_index t
  show V c main_arg5 (((cfg0.win 5).blk t).view.emb (ix2 k h)) = _
  congr 1
  funext a
  apply Fin.ext
  match a with
  | ⟨0, _⟩ => show win0_5.index t (0 : Fin 2) * 256 + 1 * k.val = k.val; omega
  | ⟨1, _⟩ => show win0_5.index t (1 : Fin 2) * 32 + 1 * h.val = h.val; omega

theorem arr0_whole_6 (c : Dev nD) (t : Fin cfg0.N) (h : Fin 32) :
    iblk0 V c 6 t (ix1 h) = V c main_arg6 (ix1 h) := by
  obtain ⟨-, -, -, -, -, -, -, -, -, -, e0, -⟩ := arr0_block_index t
  show V c main_arg6 (((cfg0.win 6).blk t).view.emb (ix1 h)) = _
  congr 1
  funext a
  apply Fin.ext
  match a with
  | ⟨0, _⟩ => show win0_6.index t (0 : Fin 1) * 32 + 1 * h.val = h.val; omega

/-! ## The left projection (output window 7) -/

/-- Where window 7's block at point t sits in its array: all channels, residues 96 t … 96 t + 95, all sequences. -/
theorem arr0_emb_7 (t : Fin cfg0.N) (h : Fin 32) (r : Fin 96) (s : Fin 64) :
    ((cfg0.win 7).blk t).view.emb (ix3 h r s) = ix3 h ⟨96 * t.val + r.val, by have := arr0_point_lt t; omega⟩ s := by
  obtain ⟨-, -, -, -, -, -, -, -, -, -, -, e0, e1, e2, -⟩ := arr0_block_index t
  funext a
  apply Fin.ext
  match a with
  | ⟨0, _⟩ => show win0_7.index t (0 : Fin 3) * 32 + 1 * h.val = h.val; omega
  | ⟨1, _⟩ => show win0_7.index t (1 : Fin 3) * 96 + 1 * r.val = 96 * t.val + r.val; omega
  | ⟨2, _⟩ => show win0_7.index t (2 : Fin 3) * 64 + 1 * s.val = s.val; omega

/-- What point t writes back is block t of the left projection of the whole input: the body's one store covers its
    staging buffer with the payload of the whole input blocks; at (h, r, s) the payload is the contraction over the
    256 channels of the normalised row (s, 96 t + r) with column h of the weights, plus the bias. -/
theorem arr0_flushed_7 (c : Dev nD) (X : FVec Ideal Opm.SX .f32)
    (hX : ∀ (s : Fin 64) (r : Fin 192) (k : Fin 256), V c main_v0 (ix3 s r k) = X (ix4 0 s r k)) (t : Fin cfg0.N) :
    (dat0 V c).flushed 7 t = ((cfg0.win 7).blk t).view.read (Elt Ideal) (Opm.proj X (V c main_arg1) (V c main_arg2) (V c main_arg3) (V c main_arg4)) := by
  show (cfg0.win 7).cut (grid0.coords t) ((dat0 V c).after 7 t) = _
  rw [after0_7]
  unfold out0_7
  rw [View.canon_unit_zero arr0_zeros3]
  simp only [View.ld_unit_zero (S := S64x96x256) arr0_zeros3, View.ld_unit_zero (S := S256) arr0_zeros1,
    View.ld_unit_zero (S := S256x32) arr0_zeros2, View.ld_unit_zero (S := S32) arr0_zeros1]
  funext j
  obtain ⟨h, r, s, rfl⟩ : ∃ (h : Fin 32) (r : Fin 96) (s : Fin 64), j = ix3 h r s := ⟨j 0, j 1, j 2, eq_ix3 j⟩
  show k0_pay1 (F := Ideal) (k0_pay4 (iblk0 V c 0 t) (iblk0 V c 1 t) (iblk0 V c 2 t) (iblk0 V c 3 t) (iblk0 V c 4 t)) (ix3 h r s)
    = Opm.proj X (V c main_arg1) (V c main_arg2) (V c main_arg3) (V c main_arg4) (((cfg0.win 7).blk t).view.emb (ix3 h r s))
  refine (left_pay (iblk0 V c 0 t) (iblk0 V c 1 t) (iblk0 V c 2 t) (iblk0 V c 3 t) (iblk0 V c 4 t) h r s).trans ?_
  rw [arr0_emb_7 t h r s, Opm.proj_ix]
  unfold Opm.projAt Opm.xnAt
  simp only [arr0_rows, arr0_whole_1, arr0_whole_2, arr0_whole_3, arr0_whole_4, hX]

/-- An index of the array is in point t's block iff each coordinate is in the block's range on its axis. -/
theorem arr0_mem_blk_7 (t : Fin cfg0.N) (i : S32x192x64.Idx) :
    i ∈ ((cfg0.win 7).blk t).view.set ↔ ∀ a : Fin 3, win0_7.index t a * S32x96x64.size a ≤ (i a).val ∧ (i a).val < win0_7.index t a * S32x96x64.size a + S32x96x64.size a := by
  show i ∈ ((View.whole main_v1_0).slice (win0_7.rect t)).set ↔ _
  rw [View.set_slice_whole, Rect.mem_set_unit]
  exact Iff.rfl

/-- The two blocks tile the array: residue r lies in the block of point r / 96, which is written back. -/
theorem arr0_cover_7 (i : S32x192x64.Idx) :
    ∃ t : Fin cfg0.N, (cfg0.win 7).flush t = true ∧ i ∈ ((cfg0.win 7).blk t).view.set := by
  have h0 : (i 0).val < 32 := (i 0).isLt
  have h1 : (i 1).val < 192 := (i 1).isLt
  have h2 : (i 2).val < 64 := (i 2).isLt
  have ht : (i 1).val / 96 < 2 := by omega
  refine ⟨⟨(i 1).val / 96, ht⟩, flush0_7 _, ?_⟩
  rw [arr0_mem_blk_7]
  obtain ⟨-, -, -, -, -, -, -, -, -, -, -, e0, e1, e2, -⟩ := arr0_block_index ⟨(i 1).val / 96, ht⟩
  have e1' : win0_7.index ⟨(i 1).val / 96, ht⟩ (1 : Fin 3) = (i 1).val / 96 := e1
  intro a
  match a with
  | ⟨0, _⟩ => show win0_7.index ⟨(i 1).val / 96, ht⟩ (0 : Fin 3) * 32 ≤ (i 0).val ∧ (i 0).val < win0_7.index ⟨(i 1).val / 96, ht⟩ (0 : Fin 3) * 32 + 32; omega
  | ⟨1, _⟩ => show win0_7.index ⟨(i 1).val / 96, ht⟩ (1 : Fin 3) * 96 ≤ (i 1).val ∧ (i 1).val < win0_7.index ⟨(i 1).val / 96, ht⟩ (1 : Fin 3) * 96 + 96; omega
  | ⟨2, _⟩ => show win0_7.index ⟨(i 1).val / 96, ht⟩ (2 : Fin 3) * 64 ≤ (i 2).val ∧ (i 2).val < win0_7.index ⟨(i 1).val / 96, ht⟩ (2 : Fin 3) * 64 + 64; omega

/-- The left projection: output window 7's array after the region, given that the region's first operand is the
    input `X` with its leading unit axis dropped. -/
theorem final0_7 (c : Dev nD) (X : FVec Ideal Opm.SX .f32)
    (hX : ∀ (s : Fin 64) (r : Fin 192) (k : Fin 256), V c main_v0 (ix3 s r k) = X (ix4 0 s r k)) :
    (dat0 V c).arrAt 7 cfg0.N = Opm.proj X (V c main_arg1) (V c main_arg2) (V c main_arg3) (V c main_arg4) :=
  (dat0 V c).arrAt_eq_of_cover 7 (Opm.proj X (V c main_arg1) (V c main_arg2) (V c main_arg3) (V c main_arg4))
    (fun t _ => arr0_flushed_7 V c X hX t) arr0_cover_7

/-! ## The right projection (output window 8) -/

/-- Where window 8's block at point t sits in its array: all channels, residues 96 t … 96 t + 95, all sequences. -/
theorem arr0_emb_8 (t : Fin cfg0.N) (h : Fin 32) (r : Fin 96) (s : Fin 64) :
    ((cfg0.win 8).blk t).view.emb (ix3 h r s) = ix3 h ⟨96 * t.val + r.val, by have := arr0_point_lt t; omega⟩ s := by
  obtain ⟨-, -, -, -, -, -, -, -, -, -, -, -, -, -, e0, e1, e2⟩ := arr0_block_index t
  funext a
  apply Fin.ext
  match a with
  | ⟨0, _⟩ => show win0_8.index t (0 : Fin 3) * 32 + 1 * h.val = h.val; omega
  | ⟨1, _⟩ => show win0_8.index t (1 : Fin 3) * 96 + 1 * r.val = 96 * t.val + r.val; omega
  | ⟨2, _⟩ => show win0_8.index t (2 : Fin 3) * 64 + 1 * s.val = s.val; omega

/-- What point t writes back is block t of the right projection of the whole input: the body's one store covers its
    staging buffer with the payload of the whole input blocks; at (h, r, s) the payload is the contraction over the
    256 channels of the normalised row (s, 96 t + r) with column h of the weights, plus the bias. -/
theorem arr0_flushed_8 (c : Dev nD) (X : FVec Ideal Opm.SX .f32)
    (hX : ∀ (s : Fin 64) (r : Fin 192) (k : Fin 256), V c main_v0 (ix3 s r k) = X (ix4 0 s r k)) (t : Fin cfg0.N) :
    (dat0 V c).flushed 8 t = ((cfg0.win 8).blk t).view.read (Elt Ideal) (Opm.proj X (V c main_arg1) (V c main_arg2) (V c main_arg5) (V c main_arg6)) := by
  show (cfg0.win 8).cut (grid0.coords t) ((dat0 V c).after 8 t) = _
  rw [after0_8]
  unfold out0_8
  rw [View.canon_unit_zero arr0_zeros3]
  simp only [View.ld_unit_zero (S := S64x96x256) arr0_zeros3, View.ld_unit_zero (S := S256) arr0_zeros1,
    View.ld_unit_zero (S := S256x32) arr0_zeros2, View.ld_unit_zero (S := S32) arr0_zeros1]
  funext j
  obtain ⟨h, r, s, rfl⟩ : ∃ (h : Fin 32) (r : Fin 96) (s : Fin 64), j = ix3 h r s := ⟨j 0, j 1, j 2, eq_ix3 j⟩
  show k0_pay2 (F := Ideal) (k0_pay5 (iblk0 V c 0 t) (iblk0 V c 1 t) (iblk0 V c 2 t) (iblk0 V c 5 t)) (k0_pay6 (iblk0 V c 6 t)) (ix3 h r s)
    = Opm.proj X (V c main_arg1) (V c main_arg2) (V c main_arg5) (V c main_arg6) (((cfg0.win 8).blk t).view.emb (ix3 h r s))
  refine (right_pay (iblk0 V c 0 t) (iblk0 V c 1 t) (iblk0 V c 2 t) (iblk0 V c 5 t) (iblk0 V c 6 t) h r s).trans ?_
  rw [arr0_emb_8 t h r s, Opm.proj_ix]
  unfold Opm.projAt Opm.xnAt
  simp only [arr0_rows, arr0_whole_1, arr0_whole_2, arr0_whole_5, arr0_whole_6, hX]

/-- An index of the array is in point t's block iff each coordinate is in the block's range on its axis. -/
theorem arr0_mem_blk_8 (t : Fin cfg0.N) (i : S32x192x64.Idx) :
    i ∈ ((cfg0.win 8).blk t).view.set ↔ ∀ a : Fin 3, win0_8.index t a * S32x96x64.size a ≤ (i a).val ∧ (i a).val < win0_8.index t a * S32x96x64.size a + S32x96x64.size a := by
  show i ∈ ((View.whole main_v1_1).slice (win0_8.rect t)).set ↔ _
  rw [View.set_slice_whole, Rect.mem_set_unit]
  exact Iff.rfl

/-- The two blocks tile the array: residue r lies in the block of point r / 96, which is written back. -/
theorem arr0_cover_8 (i : S32x192x64.Idx) :
    ∃ t : Fin cfg0.N, (cfg0.win 8).flush t = true ∧ i ∈ ((cfg0.win 8).blk t).view.set := by
  have h0 : (i 0).val < 32 := (i 0).isLt
  have h1 : (i 1).val < 192 := (i 1).isLt
  have h2 : (i 2).val < 64 := (i 2).isLt
  have ht : (i 1).val / 96 < 2 := by omega
  refine ⟨⟨(i 1).val / 96, ht⟩, flush0_8 _, ?_⟩
  rw [arr0_mem_blk_8]
  obtain ⟨-, -, -, -, -, -, -, -, -, -, -, -, -, -, e0, e1, e2⟩ := arr0_block_index ⟨(i 1).val / 96, ht⟩
  have e1' : win0_8.index ⟨(i 1).val / 96, ht⟩ (1 : Fin 3) = (i 1).val / 96 := e1
  intro a
  match a with
  | ⟨0, _⟩ => show win0_8.index ⟨(i 1).val / 96, ht⟩ (0 : Fin 3) * 32 ≤ (i 0).val ∧ (i 0).val < win0_8.index ⟨(i 1).val / 96, ht⟩ (0 : Fin 3) * 32 + 32; omega
  | ⟨1, _⟩ => show win0_8.index ⟨(i 1).val / 96, ht⟩ (1 : Fin 3) * 96 ≤ (i 1).val ∧ (i 1).val < win0_8.index ⟨(i 1).val / 96, ht⟩ (1 : Fin 3) * 96 + 96; omega
  | ⟨2, _⟩ => show win0_8.index ⟨(i 1).val / 96, ht⟩ (2 : Fin 3) * 64 ≤ (i 2).val ∧ (i 2).val < win0_8.index ⟨(i 1).val / 96, ht⟩ (2 : Fin 3) * 64 + 64; omega

/-- The right projection: output window 8's array after the region. -/
theorem final0_8 (c : Dev nD) (X : FVec Ideal Opm.SX .f32)
    (hX : ∀ (s : Fin 64) (r : Fin 192) (k : Fin 256), V c main_v0 (ix3 s r k) = X (ix4 0 s r k)) :
    (dat0 V c).arrAt 8 cfg0.N = Opm.proj X (V c main_arg1) (V c main_arg2) (V c main_arg5) (V c main_arg6) :=
  (dat0 V c).arrAt_eq_of_cover 8 (Opm.proj X (V c main_arg1) (V c main_arg2) (V c main_arg5) (V c main_arg6))
    (fun t _ => arr0_flushed_8 V c X hX t) arr0_cover_8

end Cert.KernelIdeal.OPM

end
-- ==== Proof.K1Pay.lean ====
/-
  The second kernel's arithmetic at one entry.
  For a hidden channel d the body multiplies row d of the left block into every row e of it, likewise on the
  right, contracts the two products over the 64 sequences (one product per e), and lays the result out as
  (residue i, residue j, e): one 32-lane slice of the scratch. The four slices of a step, read as 128 lanes,
  are multiplied by a 128 × 128 slab of weights and added to the running output block; the last step adds the bias.
-/
import proofs.«414971_j36060545417655_3_alg».proof.Proof.Gen.KernelIdeal.Skeleton
import proofs.«414971_j36060545417655_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.OPM

open Cert.KernelIdeal Cert.KernelIdeal.Gen Idealize.ShloMosaic Idealize.ShloMosaic.TcCoe Idealize.ShloMosaic.ValueIdx Idealize.SL.Sem
open Idealize.ShloMosaic.Pipeline (Dat)

/-! ## The batched contraction read at an index

Left operand [32, 96, 64], right operand [32, 192, 64], result [32, 96, 192]: axis 0 is the batch axis of both operands,
axis 2 of both is contracted, and the result's axes are (batch, left row, right row). -/

theorem lhs_dotB_0 (i : S32x96x192.Idx) (q : dot_S32x96x64_S32x192x64_S32x96x192_2_2_1_1_0_0.contr.Idx) :
    (dot_S32x96x64_S32x192x64_S32x96x192_2_2_1_1_0_0.lhsIdx i q 0).val = (i 0).val := by
  unfold DotDims.lhsIdx
  rw [dif_pos (show (0 : Fin S32x96x64.rank) ∈ dot_S32x96x64_S32x192x64_S32x96x192_2_2_1_1_0_0.lhsBatch by decide)]
  rfl
theorem lhs_dotB_1 (i : S32x96x192.Idx) (q : dot_S32x96x64_S32x192x64_S32x96x192_2_2_1_1_0_0.contr.Idx) :
    (dot_S32x96x64_S32x192x64_S32x96x192_2_2_1_1_0_0.lhsIdx i q 1).val = (i 1).val := by
  unfold DotDims.lhsIdx
  rw [dif_neg (show ¬(1 : Fin S32x96x64.rank) ∈ dot_S32x96x64_S32x192x64_S32x96x192_2_2_1_1_0_0.lhsBatch by decide), dif_pos (show (1 : Fin S32x96x64.rank) ∈ dot_S32x96x64_S32x192x64_S32x96x192_2_2_1_1_0_0.lhsNonContracting by decide)]
  rfl
theorem lhs_dotB_2 (i : S32x96x192.Idx) (q : dot_S32x96x64_S32x192x64_S32x96x192_2_2_1_1_0_0.contr.Idx) :
    (dot_S32x96x64_S32x192x64_S32x96x192_2_2_1_1_0_0.lhsIdx i q 2).val = (q ⟨0, by decide⟩).val :=
  dot_S32x96x64_S32x192x64_S32x96x192_2_2_1_1_0_0.lhsIdx_val_of_single rfl i q
theorem rhs_dotB_0 (i : S32x96x192.Idx) (q : dot_S32x96x64_S32x192x64_S32x96x192_2_2_1_1_0_0.contr.Idx) :
    (dot_S32x96x64_S32x192x64_S32x96x192_2_2_1_1_0_0.rhsIdx i q 0).val = (i 0).val := by
  unfold DotDims.rhsIdx
  rw [dif_pos (show (0 : Fin S32x192x64.rank) ∈ dot_S32x96x64_S32x192x64_S32x96x192_2_2_1_1_0_0.rhsBatch by decide)]
  rfl
theorem rhs_dotB_1 (i : S32x96x192.Idx) (q : dot_S32x96x64_S32x192x64_S32x96x192_2_2_1_1_0_0.contr.Idx) :
    (dot_S32x96x64_S32x192x64_S32x96x192_2_2_1_1_0_0.rhsIdx i q 1).val = (i 2).val := by
  unfold DotDims.rhsIdx
  rw [dif_neg (show ¬(1 : Fin S32x192x64.rank) ∈ dot_S32x96x64_S32x192x64_S32x96x192_2_2_1_1_0_0.rhsBatch by decide), dif_pos (show (1 : Fin S32x192x64.rank) ∈ dot_S32x96x64_S32x192x64_S32x96x192_2_2_1_1_0_0.rhsNonContracting by decide)]
  rfl
theorem rhs_dotB_2 (i : S32x96x192.Idx) (q : dot_S32x96x64_S32x192x64_S32x96x192_2_2_1_1_0_0.contr.Idx) :
    (dot_S32x96x64_S32x192x64_S32x96x192_2_2_1_1_0_0.rhsIdx i q 2).val = (q ⟨0, by decide⟩).val :=
  dot_S32x96x64_S32x192x64_S32x96x192_2_2_1_1_0_0.rhsIdx_val_of_single rfl i q

/-- Into a zero accumulator the batched contraction at (e, a, b) is the sum over the 64 contracted positions of
    left (e, a, s) times right (e, b, s). -/
theorem matmulB_apply (x : FVec Ideal S32x96x64 .bf16) (y : FVec Ideal S32x192x64 .bf16) (e : Fin 32) (a : Fin 96) (b : Fin 192) :
    matmul dot_S32x96x64_S32x192x64_S32x96x192_2_2_1_1_0_0 none x y (constant (F := Ideal) S32x96x192 .f32 0x00000000#32) (ix3 e a b)
      = ∑ s : Fin 64, x (ix3 e a s) * y (ix3 e b s) := by
  refine (Ideal.matmul_constant_zero_apply dot_S32x96x64_S32x192x64_S32x96x192_2_2_1_1_0_0 none x y (ix3 e a b)).trans ?_
  rw [← Equiv.sum_comp (contrEquiv1 dot_S32x96x64_S32x192x64_S32x96x192_2_2_1_1_0_0 64 rfl rfl).symm]
  refine Finset.sum_congr rfl fun k _ => ?_
  have hk := contrEquiv1_symm_val dot_S32x96x64_S32x192x64_S32x96x192_2_2_1_1_0_0 64 rfl rfl k
  have el : dot_S32x96x64_S32x192x64_S32x96x192_2_2_1_1_0_0.lhsIdx (ix3 e a b) ((contrEquiv1 dot_S32x96x64_S32x192x64_S32x96x192_2_2_1_1_0_0 64 rfl rfl).symm k) = ix3 e a k := funext fun c => Fin.ext (by
    match c with
    | ⟨0, _⟩ => exact lhs_dotB_0 _ _
    | ⟨1, _⟩ => exact lhs_dotB_1 _ _
    | ⟨2, _⟩ => exact (lhs_dotB_2 _ _).trans hk)
  have er : dot_S32x96x64_S32x192x64_S32x96x192_2_2_1_1_0_0.rhsIdx (ix3 e a b) ((contrEquiv1 dot_S32x96x64_S32x192x64_S32x96x192_2_2_1_1_0_0 64 rfl rfl).symm k) = ix3 e b k := funext fun c => Fin.ext (by
    match c with
    | ⟨0, _⟩ => exact rhs_dotB_0 _ _
    | ⟨1, _⟩ => exact rhs_dotB_1 _ _
    | ⟨2, _⟩ => exact (rhs_dotB_2 _ _).trans hk)
  rw [el, er]

/-! ## One row spread over the 32 rows of a block -/

/-- A [96, 64] row given a leading unit axis and broadcast to [32, 96, 64] reads, at (e, a, s), the row at (a, s). -/
theorem rowL_apply (l : FVec Ideal S96x64 .f32) (e : Fin 32) (a : Fin 96) (s : Fin 64) :
    broadcastTo S32x96x64 (shapeCast S1x96x64 l shapeCasts_S96x64_S1x96x64) broadcasts_S1x96x64_S32x96x64 (ix3 e a s)
      = l (ix2 a s) := by
  refine (broadcastTo_apply _ _ (ix3 e a s) (ix3 (0 : Fin 1) a s) (fun c => ?_)).trans ?_
  · match c with
    | ⟨0, _⟩ => rfl
    | ⟨1, _⟩ => rfl
    | ⟨2, _⟩ => rfl
  · exact shapeCast_ab_1ab_apply l _ 0 a s
/-- The same for a [192, 64] row and [32, 192, 64]. -/
theorem rowR_apply (r : FVec Ideal S192x64 .f32) (e : Fin 32) (b : Fin 192) (s : Fin 64) :
    broadcastTo S32x192x64 (shapeCast S1x192x64 r shapeCasts_S192x64_S1x192x64) broadcasts_S1x192x64_S32x192x64 (ix3 e b s)
      = r (ix2 b s) := by
  refine (broadcastTo_apply _ _ (ix3 e b s) (ix3 (0 : Fin 1) b s) (fun c => ?_)).trans ?_
  · match c with
    | ⟨0, _⟩ => rfl
    | ⟨1, _⟩ => rfl
    | ⟨2, _⟩ => rfl
  · exact shapeCast_ab_1ab_apply r _ 0 b s

/-! ## One slice of the scratch -/

/-- The computation the four slices share, over its four operands: the row `l` times every row of the left block, the
    row `r` times every row of the right block, contracted over the 64 sequences per row e, then laid out as
    (left residue a, right residue b, row e). -/
theorem slice_apply (v4 : FVec Ideal S32x96x64 .f32) (v6 : FVec Ideal S32x192x64 .f32) (l : FVec Ideal S96x64 .f32)
    (r : FVec Ideal S192x64 .f32) (a : Fin 96) (b : Fin 192) (e : Fin 32) :
    shapeCast S96x192x32
        (transpose S96x192x32 [1, 2, 0]
          (truncf .bf16
            (matmul dot_S32x96x64_S32x192x64_S32x96x192_2_2_1_1_0_0 none
              (truncf .bf16 (mulf (broadcastTo S32x96x64 (shapeCast S1x96x64 l shapeCasts_S96x64_S1x96x64) broadcasts_S1x96x64_S32x96x64) v4) bitsLt_bf16_f32)
              (truncf .bf16 (mulf (broadcastTo S32x192x64 (shapeCast S1x192x64 r shapeCasts_S192x64_S1x192x64) broadcasts_S1x192x64_S32x192x64) v6) bitsLt_bf16_f32)
              (constant (F := Ideal) S32x96x192 .f32 0x00000000#32))
            bitsLt_bf16_f32)
          transposes_S32x96x192_p1_2_0_S96x192x32)
        shapeCasts_S96x192x32_S96x192x32 (ix3 a b e)
      = ∑ s : Fin 64, (l (ix2 a s) * v4 (ix3 e a s)) * (r (ix2 b s) * v6 (ix3 e b s)) := by
  refine (congrFun (shapeCast_self _ _) _).trans ?_
  -- the permutation [1, 2, 0] puts source axes (1, 2, 0) on result axes (0, 1, 2): (a, b, e) reads (e, a, b)
  refine (transpose_apply _ _ transposes_S32x96x192_p1_2_0_S96x192x32 (ix3 a b e) (ix3 e a b) (fun c => ?_)).trans ?_
  · match c with
    | ⟨0, _⟩ => rfl
    | ⟨1, _⟩ => rfl
    | ⟨2, _⟩ => rfl
  refine (truncf_apply (ψ := .bf16) _ bitsLt_bf16_f32 _).trans ?_
  refine (matmulB_apply _ _ e a b).trans ?_
  refine Finset.sum_congr rfl fun s _ => ?_
  exact congrArg₂ (· * ·) (congrArg (· * v4 (ix3 e a s)) (rowL_apply l e a s)) (congrArg (· * v6 (ix3 e b s)) (rowR_apply r e b s))

/-! ## The plain contraction read at an index

Left operand [18432, 128], right operand [128, 128], result [18432, 128]: no batch axis, the left operand's axis 1 is
contracted with the right operand's axis 0. -/

theorem lhs_dotP_0 (i : S18432x128.Idx) (q : dot_S18432x128_S128x128_S18432x128_1_0_0_1_n_n.contr.Idx) :
    (dot_S18432x128_S128x128_S18432x128_1_0_0_1_n_n.lhsIdx i q 0).val = (i 0).val := by
  unfold DotDims.lhsIdx
  rw [dif_neg (show ¬(0 : Fin S18432x128.rank) ∈ dot_S18432x128_S128x128_S18432x128_1_0_0_1_n_n.lhsBatch by decide), dif_pos (show (0 : Fin S18432x128.rank) ∈ dot_S18432x128_S128x128_S18432x128_1_0_0_1_n_n.lhsNonContracting by decide)]
  rfl
theorem lhs_dotP_1 (i : S18432x128.Idx) (q : dot_S18432x128_S128x128_S18432x128_1_0_0_1_n_n.contr.Idx) :
    (dot_S18432x128_S128x128_S18432x128_1_0_0_1_n_n.lhsIdx i q 1).val = (q ⟨0, by decide⟩).val :=
  dot_S18432x128_S128x128_S18432x128_1_0_0_1_n_n.lhsIdx_val_of_single rfl i q
theorem rhs_dotP_0 (i : S18432x128.Idx) (q : dot_S18432x128_S128x128_S18432x128_1_0_0_1_n_n.contr.Idx) :
    (dot_S18432x128_S128x128_S18432x128_1_0_0_1_n_n.rhsIdx i q 0).val = (q ⟨0, by decide⟩).val :=
  dot_S18432x128_S128x128_S18432x128_1_0_0_1_n_n.rhsIdx_val_of_single rfl i q
theorem rhs_dotP_1 (i : S18432x128.Idx) (q : dot_S18432x128_S128x128_S18432x128_1_0_0_1_n_n.contr.Idx) :
    (dot_S18432x128_S128x128_S18432x128_1_0_0_1_n_n.rhsIdx i q 1).val = (i 1).val := by
  unfold DotDims.rhsIdx
  rw [dif_neg (show ¬(1 : Fin S128x128.rank) ∈ dot_S18432x128_S128x128_S18432x128_1_0_0_1_n_n.rhsBatch by decide), dif_pos (show (1 : Fin S128x128.rank) ∈ dot_S18432x128_S128x128_S18432x128_1_0_0_1_n_n.rhsNonContracting by decide)]
  rfl

/-- Into a zero accumulator the plain contraction at (r, p) is the sum over the 128 contracted positions of
    left (r, k) times right (k, p). -/
theorem matmulP_apply (x : FVec Ideal S18432x128 .bf16) (y : FVec Ideal S128x128 .bf16) (r : Fin 18432) (p : Fin 128) :
    matmul dot_S18432x128_S128x128_S18432x128_1_0_0_1_n_n none x y (constant (F := Ideal) S18432x128 .f32 0x00000000#32) (ix2 r p)
      = ∑ k : Fin 128, x (ix2 r k) * y (ix2 k p) := by
  refine (Ideal.matmul_constant_zero_apply dot_S18432x128_S128x128_S18432x128_1_0_0_1_n_n none x y (ix2 r p)).trans ?_
  rw [← Equiv.sum_comp (contrEquiv1 dot_S18432x128_S128x128_S18432x128_1_0_0_1_n_n 128 rfl rfl).symm]
  refine Finset.sum_congr rfl fun k _ => ?_
  have hk := contrEquiv1_symm_val dot_S18432x128_S128x128_S18432x128_1_0_0_1_n_n 128 rfl rfl k
  have el : dot_S18432x128_S128x128_S18432x128_1_0_0_1_n_n.lhsIdx (ix2 r p) ((contrEquiv1 dot_S18432x128_S128x128_S18432x128_1_0_0_1_n_n 128 rfl rfl).symm k) = ix2 r k := funext fun c => Fin.ext (by
    match c with
    | ⟨0, _⟩ => exact lhs_dotP_0 _ _
    | ⟨1, _⟩ => exact (lhs_dotP_1 _ _).trans hk)
  have er : dot_S18432x128_S128x128_S18432x128_1_0_0_1_n_n.rhsIdx (ix2 r p) ((contrEquiv1 dot_S18432x128_S128x128_S18432x128_1_0_0_1_n_n 128 rfl rfl).symm k) = ix2 k p := funext fun c => Fin.ext (by
    match c with
    | ⟨0, _⟩ => exact (rhs_dotP_0 _ _).trans hk
    | ⟨1, _⟩ => exact rhs_dotP_1 _ _)
  rw [el, er]

/-- The whole-block loads pass through unchanged. -/
theorem pay3_apply (v3 : Vec Ideal S32x96x64 .f32) (y : S32x96x64.Idx) : k1_pay3 (F := Ideal) v3 y = v3 y := by
  unfold k1_pay3
  exact congrFun (shapeCast_self v3 _) y
theorem pay4_apply (v5 : Vec Ideal S32x192x64 .f32) (y : S32x192x64.Idx) : k1_pay4 (F := Ideal) v5 y = v5 y := by
  unfold k1_pay4
  exact congrFun (shapeCast_self v5 _) y
/-- A one-row load with its leading unit axis dropped. -/
theorem pay6_apply (v32 : Vec Ideal S1x96x64 .f32) (a : Fin 96) (s : Fin 64) :
    k1_pay6 (F := Ideal) v32 (ix2 a s) = v32 (ix3 0 a s) := by
  unfold k1_pay6
  exact shapeCast_1ab_ab_apply v32 _ a s

/-- Slice 0 at (i, j, e): the sum over the sequences of (row d · row e on the left at i) · (row d · row e on the right at j),
    row d being the one-row loads `v10`, `v13`. -/
theorem slice_pay5 (v3 : Vec Ideal S32x96x64 .f32) (v5 : Vec Ideal S32x192x64 .f32) (v10 : Vec Ideal S1x96x64 .f32)
    (v13 : Vec Ideal S1x192x64 .f32) (a : Fin 96) (b : Fin 192) (e : Fin 32) :
    k1_pay5 (F := Ideal) v3 v5 v10 v13 (ix3 a b e)
      = ∑ s : Fin 64, (v10 (ix3 0 a s) * v3 (ix3 e a s)) * (v13 (ix3 0 b s) * v5 (ix3 e b s)) := by
  unfold k1_pay5
  refine (slice_apply (k1_pay3 v3) (k1_pay4 v5) (shapeCast S96x64 v10 shapeCasts_S1x96x64_S96x64)
    (shapeCast S192x64 v13 shapeCasts_S1x192x64_S192x64) a b e).trans ?_
  refine Finset.sum_congr rfl fun s _ => ?_
  exact congrArg₂ (· * ·)
    (congrArg₂ (· * ·) (shapeCast_1ab_ab_apply v10 _ a s) (pay3_apply v3 _))
    (congrArg₂ (· * ·) (shapeCast_1ab_ab_apply v13 _ b s) (pay4_apply v5 _))
/-- Slice 1, the left row arriving already squeezed. -/
theorem slice_pay7 (v4 : FVec Ideal S32x96x64 .f32) (v6 : FVec Ideal S32x192x64 .f32) (v33 : FVec Ideal S96x64 .f32)
    (v35 : Vec Ideal S1x192x64 .f32) (a : Fin 96) (b : Fin 192) (e : Fin 32) :
    k1_pay7 (F := Ideal) v4 v6 v33 v35 (ix3 a b e)
      = ∑ s : Fin 64, (v33 (ix2 a s) * v4 (ix3 e a s)) * (v35 (ix3 0 b s) * v6 (ix3 e b s)) := by
  unfold k1_pay7
  refine (slice_apply v4 v6 v33 (shapeCast S192x64 v35 shapeCasts_S1x192x64_S192x64) a b e).trans ?_
  refine Finset.sum_congr rfl fun s _ => ?_
  exact congrArg (v33 (ix2 a s) * v4 (ix3 e a s) * ·) (congrArg (· * v6 (ix3 e b s)) (shapeCast_1ab_ab_apply v35 _ b s))
/-- Slice 2. -/
theorem slice_pay8 (v4 : FVec Ideal S32x96x64 .f32) (v6 : FVec Ideal S32x192x64 .f32) (v54 : Vec Ideal S1x96x64 .f32)
    (v57 : Vec Ideal S1x192x64 .f32) (a : Fin 96) (b : Fin 192) (e : Fin 32) :
    k1_pay8 (F := Ideal) v4 v6 v54 v57 (ix3 a b e)
      = ∑ s : Fin 64, (v54 (ix3 0 a s) * v4 (ix3 e a s)) * (v57 (ix3 0 b s) * v6 (ix3 e b s)) := by
  unfold k1_pay8
  refine (slice_apply v4 v6 (shapeCast S96x64 v54 shapeCasts_S1x96x64_S96x64)
    (shapeCast S192x64 v57 shapeCasts_S1x192x64_S192x64) a b e).trans ?_
  refine Finset.sum_congr rfl fun s _ => ?_
  exact congrArg₂ (· * ·)
    (congrArg (· * v4 (ix3 e a s)) (shapeCast_1ab_ab_apply v54 _ a s))
    (congrArg (· * v6 (ix3 e b s)) (shapeCast_1ab_ab_apply v57 _ b s))
/-- Slice 3. -/
theorem slice_pay9 (v4 : FVec Ideal S32x96x64 .f32) (v6 : FVec Ideal S32x192x64 .f32) (v76 : Vec Ideal S1x96x64 .f32)
    (v79 : Vec Ideal S1x192x64 .f32) (a : Fin 96) (b : Fin 192) (e : Fin 32) :
    k1_pay9 (F := Ideal) v4 v6 v76 v79 (ix3 a b e)
      = ∑ s : Fin 64, (v76 (ix3 0 a s) * v4 (ix3 e a s)) * (v79 (ix3 0 b s) * v6 (ix3 e b s)) := by
  unfold k1_pay9
  refine (slice_apply v4 v6 (shapeCast S96x64 v76 shapeCasts_S1x96x64_S96x64)
    (shapeCast S192x64 v79 shapeCasts_S1x192x64_S192x64) a b e).trans ?_
  refine Finset.sum_congr rfl fun s _ => ?_
  exact congrArg₂ (· * ·)
    (congrArg (· * v4 (ix3 e a s)) (shapeCast_1ab_ab_apply v76 _ a s))
    (congrArg (· * v6 (ix3 e b s)) (shapeCast_1ab_ab_apply v79 _ b s))

/-- The accumulation: the running block plus the scratch's 128 lanes against the weight slab. -/
theorem acc_pay10 (v95 : Vec Ideal S96x192x128 .bf16) (v97 : Vec Ideal S128x128 .bf16) (v100 : Vec Ideal S96x192x128 .f32)
    (a : Fin 96) (b : Fin 192) (p : Fin 128) :
    k1_pay10 (F := Ideal) v95 v97 v100 (ix3 a b p)
      = v100 (ix3 a b p) + ∑ k : Fin 128, v95 (ix3 a b k) * v97 (ix2 k p) := by
  have ha := a.isLt
  have hb := b.isLt
  have hr : 192 * a.val + b.val < 18432 := by omega
  unfold k1_pay10
  refine (addf_apply _ _ _).trans ?_
  refine congrArg₂ (· + ·) (congrFun (shapeCast_self v100 _) _) ?_
  -- entry (a, b, p) of the [96, 192, 128] view is row 192·a + b, lane p, of the [18432, 128] product
  refine (shapeCast_apply _ shapeCasts_S18432x128_S96x192x128 (ix3 a b p) (ix2 (⟨192 * a.val + b.val, hr⟩ : Fin 18432) p) (by
    rw [Shape.rowMajor_val_two, Shape.rowMajor_val_three]
    show (192 * a.val + b.val) * 128 + p.val = (a.val * 192 + b.val) * 128 + p.val
    omega)).trans ?_
  refine (matmulP_apply _ _ _ p).trans ?_
  refine Finset.sum_congr rfl fun k _ => ?_
  -- and row 192·a + b, lane k, of the flattened scratch is its entry (a, b, k)
  refine congrArg₂ (· * ·) ?_ (congrFun (shapeCast_self v97 _) _)
  exact shapeCast_apply v95 _ _ (ix3 a b k) (by
    rw [Shape.rowMajor_val_two, Shape.rowMajor_val_three]
    show (a.val * 192 + b.val) * 128 + k.val = (192 * a.val + b.val) * 128 + k.val
    omega)

/-- The bias added along the last axis. -/
theorem bias_pay1 (v108 : Vec Ideal S96x192x128 .f32) (v110 : Vec Ideal S128 .f32) (a : Fin 96) (b : Fin 192) (p : Fin 128) :
    k1_pay1 (F := Ideal) v108 v110 (ix3 a b p) = v108 (ix3 a b p) + v110 (ix1 p) := by
  unfold k1_pay1
  refine (addf_apply _ _ _).trans ?_
  refine congrArg₂ (· + ·) (congrFun (shapeCast_self v108 _) _) ?_
  -- the bias is spread over the two leading axes: entry (a, b, p) reads (0, 0, p), which is lane p
  refine (broadcastTo_apply _ _ (ix3 a b p) (ix3 (0 : Fin 1) (0 : Fin 1) p) (fun c => ?_)).trans ?_
  · match c with
    | ⟨0, _⟩ => rfl
    | ⟨1, _⟩ => rfl
    | ⟨2, _⟩ => rfl
  · exact shapeCast_apply v110 _ _ (ix1 p) (by
      rw [Shape.rowMajor_val_one, Shape.rowMajor_val_three]
      show p.val = (0 * 1 + 0) * 128 + p.val
      omega)

/-- The block's reset value is zero. -/
theorem zero_pay2 (y : S96x192x128.Idx) : k1_pay2 (F := Ideal) y = 0 := by
  unfold k1_pay2
  exact Ideal.ofBits_zero_f32

end Cert.KernelIdeal.OPM

end
-- ==== Proof.K1Piece.lean ====
/-
  What one run of the second kernel's body leaves in its output block, entry by entry, in each of its three cases:
  the first step of a row tile (the block is reset, then the step's contribution added), a middle step (the
  contribution added to what the step before left), and the last step (the same, then the bias).
  The contribution at (i, j, p) is the sum over the scratch's 128 lanes k of the outer-product entry (i, j, k) times
  the weight slab's entry (k, p); lane k = 32 g + e of the scratch was written by the g-th slice store and holds the
  product for the hidden pair (4 n + g, e), n the step.
-/
import proofs.«414971_j36060545417655_3_alg».proof.Proof.Gen.KernelIdeal.Frame
import proofs.«414971_j36060545417655_3_alg».proof.Proof.K1Pay
import Idealize.ShloMosaic.Lib.Pipeline.Value

set_option maxRecDepth 16384

noncomputable section

namespace Cert.KernelIdeal.OPM

open Cert.KernelIdeal Cert.KernelIdeal.Gen Idealize.ShloMosaic Idealize.ShloMosaic.TcCoe Idealize.ShloMosaic.ValueIdx Idealize.SL.Sem
open Idealize.ShloMosaic.Pipeline (Dat)

/-- Lane k of the scratch at (i, j) in step n, from the two loaded blocks. -/
def scrAt (n : ℕ) (x0 : Vec Ideal S32x96x64 .f32) (x1 : Vec Ideal S32x192x64 .f32) (a : Fin 96) (b : Fin 192) (k : Fin 128) : EReal :=
  ∑ s : Fin 64, (x0 (ix3 (Opm.dOf n k) a s) * x0 (ix3 (Opm.eOf k) a s)) * (x1 (ix3 (Opm.dOf n k) b s) * x1 (ix3 (Opm.eOf k) b s))

/-- Lane 32 g + e of step n's scratch pairs hidden row 4 n + g with hidden row e. -/
theorem scrAt_lane (n : ℕ) (hn : n < 8) (g : ℕ) (hg : g < 4) (x0 : Vec Ideal S32x96x64 .f32) (x1 : Vec Ideal S32x192x64 .f32)
    (a : Fin 96) (b : Fin 192) (e : Fin 32) (k : Fin 128) (hk : k.val = 32 * g + e.val) :
    scrAt n x0 x1 a b k
      = ∑ s : Fin 64, (x0 (ix3 (⟨4 * n + g, by omega⟩ : Fin 32) a s) * x0 (ix3 e a s))
          * (x1 (ix3 (⟨4 * n + g, by omega⟩ : Fin 32) b s) * x1 (ix3 e b s)) := by
  have hd : Opm.dOf n k = (⟨4 * n + g, by omega⟩ : Fin 32) := Fin.ext (by
    show (4 * n + k.val / 32) % 32 = 4 * n + g
    have := e.isLt; omega)
  have he : Opm.eOf k = e := Fin.ext (by
    show k.val % 32 = e.val
    have := e.isLt; omega)
  unfold scrAt
  rw [hd, he]

/-- A one-row load of the left block at row r reads that row. -/
theorem ld_row_left (x0 : Vec Ideal S32x96x64 .f32) (off : Fin 3 → ℕ) (r : ℕ) (hr : r < 32) (hoff : off = ![r, 0, 0])
    (inb : ∀ d, off d + S1x96x64.size d ≤ S32x96x64.size d) (a : Fin 96) (s : Fin 64) :
    View.ld x0 (Rect.unit off S1x96x64.size inb) (ix3 0 a s) = x0 (ix3 (⟨r, hr⟩ : Fin 32) a s) := by
  subst hoff
  refine congrArg x0 (funext fun d => Fin.ext ?_)
  match d with
  | ⟨0, _⟩ => show r + 1 * 0 = r; omega
  | ⟨1, _⟩ => show 0 + 1 * a.val = a.val; omega
  | ⟨2, _⟩ => show 0 + 1 * s.val = s.val; omega

/-- A one-row load of the right block at row r reads that row. -/
theorem ld_row_right (x1 : Vec Ideal S32x192x64 .f32) (off : Fin 3 → ℕ) (r : ℕ) (hr : r < 32) (hoff : off = ![r, 0, 0])
    (inb : ∀ d, off d + S1x192x64.size d ≤ S32x192x64.size d) (b : Fin 192) (s : Fin 64) :
    View.ld x1 (Rect.unit off S1x192x64.size inb) (ix3 0 b s) = x1 (ix3 (⟨r, hr⟩ : Fin 32) b s) := by
  subst hoff
  refine congrArg x1 (funext fun d => Fin.ext ?_)
  match d with
  | ⟨0, _⟩ => show r + 1 * 0 = r; omega
  | ⟨1, _⟩ => show 0 + 1 * b.val = b.val; omega
  | ⟨2, _⟩ => show 0 + 1 * s.val = s.val; omega

/-- The placement of an index through the whole-shape rectangle at zero offsets is the index. -/
theorem idx_unit_zero {S : Shape} {off : Fin S.rank → ℕ} (h : off = fun _ => 0) (inb : ∀ a, off a + S.size a ≤ S.size a)
    (y : S.Idx) : (Rect.unit off S.size inb).toLoadRect.idx y = y := by
  subst h; show (Rect.whole S).emb y = y; rw [Rect.emb_whole_apply]

/-- The four slice stores of one step, newest first: lanes 96–127, 64–95, 32–63, 0–31, each holding the products
    of one hidden row (the one-row loads r_g, q_g) with all 32 hidden rows. -/
abbrev scrPieces (x0 : Vec Ideal S32x96x64 .f32) (x1 : Vec Ideal S32x192x64 .f32)
    (r0 r1 r2 r3 : Vec Ideal S1x96x64 .f32) (q0 q1 q2 q3 : Vec Ideal S1x192x64 .f32) :
    List (View.Piece (Elt Ideal) S96x192x128 .bf16) :=
  [⟨Rect.unit ![0, 0, 96] S96x192x32.size inb_S96x192x128_S96x192x32_0_0_96, k1_pay9 (k1_pay3 x0) (k1_pay4 x1) r3 q3⟩,
   ⟨Rect.unit ![0, 0, 64] S96x192x32.size inb_S96x192x128_S96x192x32_0_0_64, k1_pay8 (k1_pay3 x0) (k1_pay4 x1) r2 q2⟩,
   ⟨Rect.unit ![0, 0, 32] S96x192x32.size inb_S96x192x128_S96x192x32_0_0_32, k1_pay7 (k1_pay3 x0) (k1_pay4 x1) (k1_pay6 r1) q1⟩,
   ⟨Rect.unit ![0, 0, 0] S96x192x32.size inb_S96x192x128_S96x192x32_0_0_0, k1_pay5 x0 x1 r0 q0⟩]

/-- A slice of 32 lanes starting at lane o sits in the scratch at lanes o … o + 31. -/
theorem emb_lane (o : ℕ) (ho : o + 32 ≤ 128) (inb : ∀ d, (![0, 0, o] : Fin 3 → ℕ) d + S96x192x32.size d ≤ S96x192x128.size d)
    (a : Fin 96) (b : Fin 192) (e : Fin 32) :
    (Rect.unit (s := S96x192x128) ![0, 0, o] S96x192x32.size inb).emb (ix3 a b e)
      = ix3 a b (⟨o + e.val, by have := e.isLt; omega⟩ : Fin 128) := by
  funext d
  refine Fin.ext ?_
  match d with
  | ⟨0, _⟩ => show 0 + 1 * a.val = a.val; omega
  | ⟨1, _⟩ => show 0 + 1 * b.val = b.val; omega
  | ⟨2, _⟩ => show o + 1 * e.val = o + e.val; omega

/-- A slice payload that pairs hidden row 4 n + g with every hidden row e is the block of the scratch function its
    rectangle (lanes 32 g … 32 g + 31) names. -/
theorem lane_of_slice (n : ℕ) (hn : n < 8) (g : ℕ) (hg : g < 4) (x0 : Vec Ideal S32x96x64 .f32) (x1 : Vec Ideal S32x192x64 .f32)
    (o : ℕ) (ho : o = 32 * g) (inb : ∀ d, (![0, 0, o] : Fin 3 → ℕ) d + S96x192x32.size d ≤ S96x192x128.size d)
    (w : Vec Ideal S96x192x32 .bf16)
    (hw : ∀ (a : Fin 96) (b : Fin 192) (e : Fin 32), w (ix3 a b e)
      = ∑ s : Fin 64, (x0 (ix3 (⟨4 * n + g, by omega⟩ : Fin 32) a s) * x0 (ix3 e a s))
          * (x1 (ix3 (⟨4 * n + g, by omega⟩ : Fin 32) b s) * x1 (ix3 e b s)))
    (x : S96x192x32.Idx) :
    w x = (fun y : S96x192x128.Idx => scrAt n x0 x1 (y 0) (y 1) (y 2))
            ((Rect.unit (s := S96x192x128) ![0, 0, o] S96x192x32.size inb).emb x) := by
  obtain ⟨a, b, e, rfl⟩ : ∃ (a : Fin 96) (b : Fin 192) (e : Fin 32), x = ix3 a b e := ⟨x 0, x 1, x 2, eq_ix3 x⟩
  have he := e.isLt
  refine Eq.trans ?_ (congrArg (fun y : S96x192x128.Idx => scrAt n x0 x1 (y 0) (y 1) (y 2))
    (emb_lane o (by omega) inb a b e)).symm
  show w (ix3 a b e) = scrAt n x0 x1 a b (⟨o + e.val, by omega⟩ : Fin 128)
  rw [hw, scrAt_lane n hn g hg x0 x1 a b e (⟨o + e.val, by omega⟩ : Fin 128) (by show o + e.val = 32 * g + e.val; omega)]

/-- The scratch after the four slice stores, read at (i, j, k), is lane k of the step's outer products. -/
theorem scr_canon (n : ℕ) (hn : n < 8) (x0 : Vec Ideal S32x96x64 .f32) (x1 : Vec Ideal S32x192x64 .f32)
    (r0 r1 r2 r3 : Vec Ideal S1x96x64 .f32) (q0 q1 q2 q3 : Vec Ideal S1x192x64 .f32)
    (hr0 : ∀ (a : Fin 96) (s : Fin 64), r0 (ix3 0 a s) = x0 (ix3 (⟨4 * n + 0, by omega⟩ : Fin 32) a s))
    (hr1 : ∀ (a : Fin 96) (s : Fin 64), r1 (ix3 0 a s) = x0 (ix3 (⟨4 * n + 1, by omega⟩ : Fin 32) a s))
    (hr2 : ∀ (a : Fin 96) (s : Fin 64), r2 (ix3 0 a s) = x0 (ix3 (⟨4 * n + 2, by omega⟩ : Fin 32) a s))
    (hr3 : ∀ (a : Fin 96) (s : Fin 64), r3 (ix3 0 a s) = x0 (ix3 (⟨4 * n + 3, by omega⟩ : Fin 32) a s))
    (hq0 : ∀ (b : Fin 192) (s : Fin 64), q0 (ix3 0 b s) = x1 (ix3 (⟨4 * n + 0, by omega⟩ : Fin 32) b s))
    (hq1 : ∀ (b : Fin 192) (s : Fin 64), q1 (ix3 0 b s) = x1 (ix3 (⟨4 * n + 1, by omega⟩ : Fin 32) b s))
    (hq2 : ∀ (b : Fin 192) (s : Fin 64), q2 (ix3 0 b s) = x1 (ix3 (⟨4 * n + 2, by omega⟩ : Fin 32) b s))
    (hq3 : ∀ (b : Fin 192) (s : Fin 64), q3 (ix3 0 b s) = x1 (ix3 (⟨4 * n + 3, by omega⟩ : Fin 32) b s))
    (a : Fin 96) (b : Fin 192) (k : Fin 128) :
    View.canon (scrPieces x0 x1 r0 r1 r2 r3 q0 q1 q2 q3) (ix3 a b k) = scrAt n x0 x1 a b k := by
  refine (View.canon_apply_of_pieces (fun y : S96x192x128.Idx => scrAt n x0 x1 (y 0) (y 1) (y 2))
    (scrPieces x0 x1 r0 r1 r2 r3 q0 q1 q2 q3) ?_ (ix3 a b k)
    (View.cover_of_tiledL (scrPieces x0 x1 r0 r1 r2 r3 q0 q1 q2 q3) S96x192x32.size (by sl_kernel_rfl) (ix3 a b k))).trans rfl
  intro p hp
  simp only [List.mem_cons, List.not_mem_nil, or_false] at hp
  rcases hp with rfl | rfl | rfl | rfl
  · exact lane_of_slice n hn 3 (by omega) x0 x1 96 rfl inb_S96x192x128_S96x192x32_0_0_96 _ (fun a b e => by
      refine (slice_pay9 (k1_pay3 x0) (k1_pay4 x1) r3 q3 a b e).trans ?_; simp only [pay3_apply, pay4_apply, hr3, hq3])
  · exact lane_of_slice n hn 2 (by omega) x0 x1 64 rfl inb_S96x192x128_S96x192x32_0_0_64 _ (fun a b e => by
      refine (slice_pay8 (k1_pay3 x0) (k1_pay4 x1) r2 q2 a b e).trans ?_; simp only [pay3_apply, pay4_apply, hr2, hq2])
  · exact lane_of_slice n hn 1 (by omega) x0 x1 32 rfl inb_S96x192x128_S96x192x32_0_0_32 _ (fun a b e => by
      refine (slice_pay7 (k1_pay3 x0) (k1_pay4 x1) (k1_pay6 r1) q1 a b e).trans ?_; simp only [pay3_apply, pay4_apply, pay6_apply, hr1, hq1])
  · exact lane_of_slice n hn 0 (by omega) x0 x1 0 rfl inb_S96x192x128_S96x192x32_0_0_0 _ (fun a b e => by
      refine (slice_pay5 x0 x1 r0 q0 a b e).trans ?_; simp only [hr0, hq0])

/-- The scratch read back whole after one step's four slice stores, the one-row loads being rows 4 n … 4 n + 3 of the
    two blocks (n the step's coordinate along the second grid axis): entry (i, j, k) is lane k of the step's outer products. -/
theorem scr_read_at (v : View sig .tc .vmem S96x192x128 .bf16) (i : grid1.Coords)
    (x0 : Vec Ideal S32x96x64 .f32) (x1 : Vec Ideal S32x192x64 .f32)
    (h10 : ∀ d, k1_off1 i 0#32 d + S1x96x64.size d ≤ S32x96x64.size d)
    (h11 : ∀ d, k1_off1 i 1#32 d + S1x96x64.size d ≤ S32x96x64.size d)
    (h12 : ∀ d, k1_off1 i 2#32 d + S1x96x64.size d ≤ S32x96x64.size d)
    (h13 : ∀ d, k1_off1 i 3#32 d + S1x96x64.size d ≤ S32x96x64.size d)
    (h20 : ∀ d, k1_off2 i 0#32 d + S1x192x64.size d ≤ S32x192x64.size d)
    (h21 : ∀ d, k1_off2 i 1#32 d + S1x192x64.size d ≤ S32x192x64.size d)
    (h22 : ∀ d, k1_off2 i 2#32 d + S1x192x64.size d ≤ S32x192x64.size d)
    (h23 : ∀ d, k1_off2 i 3#32 d + S1x192x64.size d ≤ S32x192x64.size d)
    (off : Fin 3 → ℕ) (hoff : off = fun _ => 0) (inb : ∀ d, off d + S96x192x128.size d ≤ S96x192x128.size d)
    (a : Fin 96) (b : Fin 192) (k : Fin 128) :
    v.readCov (scrPieces x0 x1
        (View.ld x0 (Rect.unit (k1_off1 i 0#32) S1x96x64.size h10)) (View.ld x0 (Rect.unit (k1_off1 i 1#32) S1x96x64.size h11))
        (View.ld x0 (Rect.unit (k1_off1 i 2#32) S1x96x64.size h12)) (View.ld x0 (Rect.unit (k1_off1 i 3#32) S1x96x64.size h13))
        (View.ld x1 (Rect.unit (k1_off2 i 0#32) S1x192x64.size h20)) (View.ld x1 (Rect.unit (k1_off2 i 1#32) S1x192x64.size h21))
        (View.ld x1 (Rect.unit (k1_off2 i 2#32) S1x192x64.size h22)) (View.ld x1 (Rect.unit (k1_off2 i 3#32) S1x192x64.size h23)))
      (Rect.unit off S96x192x128.size inb).toLoadRect (ix3 a b k)
      = scrAt (i 1).val x0 x1 a b k := by
  have hn : (i 1).val < 8 := (i 1).isLt
  rw [View.readCov_eq_canon']
  show View.canon _ ((Rect.unit off S96x192x128.size inb).toLoadRect.idx (ix3 a b k)) = _
  rw [idx_unit_zero hoff inb]
  exact scr_canon (i 1).val hn x0 x1 _ _ _ _ _ _ _ _
    (fun a s => ld_row_left x0 _ (4 * (i 1).val + 0) (by omega) (k1_off1_eq i ⟨0, by decide⟩) h10 a s)
    (fun a s => ld_row_left x0 _ (4 * (i 1).val + 1) (by omega) (k1_off1_eq i ⟨1, by decide⟩) h11 a s)
    (fun a s => ld_row_left x0 _ (4 * (i 1).val + 2) (by omega) (k1_off1_eq i ⟨2, by decide⟩) h12 a s)
    (fun a s => ld_row_left x0 _ (4 * (i 1).val + 3) (by omega) (k1_off1_eq i ⟨3, by decide⟩) h13 a s)
    (fun b s => ld_row_right x1 _ (4 * (i 1).val + 0) (by omega) (k1_off2_eq i ⟨0, by decide⟩) h20 b s)
    (fun b s => ld_row_right x1 _ (4 * (i 1).val + 1) (by omega) (k1_off2_eq i ⟨1, by decide⟩) h21 b s)
    (fun b s => ld_row_right x1 _ (4 * (i 1).val + 2) (by omega) (k1_off2_eq i ⟨2, by decide⟩) h22 b s)
    (fun b s => ld_row_right x1 _ (4 * (i 1).val + 3) (by omega) (k1_off2_eq i ⟨3, by decide⟩) h23 b s)
    a b k

/-- The first step of a row tile: reset, then the contribution. -/
theorem outA_apply (c : Dev nD) (i : grid1.Coords) (arg2 : Memref sig .tc .vmem S32x96x64 .f32) (harg2 : arg2.IsWhole) (arg3 : Memref sig .tc .vmem S32x192x64 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S96x192x128 .f32) (harg6 : arg6.IsWhole) (arg7 : Memref sig .tc .vmem S96x192x128 .bf16) (harg7 : arg7.IsWhole) (hc0 : cond1_0 i) (hc1 : ¬cond1_1 i)
    (x0 : Vec Ideal S32x96x64 .f32) (x1 : Vec Ideal S32x192x64 .f32) (x2 : Vec Ideal S128x128 .bf16) (x3 : Vec Ideal S128 .f32)
    (a : Fin 96) (b : Fin 192) (p : Fin 128) :
    out1_A_4 (F := Ideal) c i arg2 harg2 arg3 harg3 arg4 harg4 arg5 harg5 arg6 harg6 arg7 harg7 hc0 hc1 x0 x1 x2 x3 (ix3 a b p)
      = 0 + ∑ k : Fin 128, scrAt (i 1).val x0 x1 a b k * x2 (ix2 k p) := by
  have hz : (![0, 0, 0] : Fin 3 → ℕ) = fun _ => 0 := by funext d; match d with | ⟨0, _⟩ => rfl | ⟨1, _⟩ => rfl | ⟨2, _⟩ => rfl
  have hz2 : (![0, 0] : Fin 2 → ℕ) = fun _ => 0 := by funext d; match d with | ⟨0, _⟩ => rfl | ⟨1, _⟩ => rfl
  unfold out1_A_4
  rw [View.read_writes_eq_canon _ _ _ (cover1_A_4 c i arg2 harg2 arg3 harg3 arg4 harg4 arg5 harg5 arg6 harg6 arg7 harg7 hc0 hc1 x0 x1 x2 x3)]
  unfold kernelRun1_A
  dsimp only
  sl_unfold_run_names
  rw [View.canon_cons_unit_zero (S := S96x192x128) hz]
  simp only [View.readAt_eq_ld, harg2.read_unread, harg3.read_unread, harg4.read_unread,
    View.ld_unit_zero (S := S32x96x64) hz, View.ld_unit_zero (S := S32x192x64) hz, View.ld_unit_zero (S := S128x128) hz2,
    View.readCov_unit_zero (S := S96x192x128) _ hz]
  refine (acc_pay10 _ _ _ a b p).trans ?_
  refine congrArg₂ (fun s t : EReal => s + t) (zero_pay2 (ix3 a b p)) (Finset.sum_congr rfl fun k _ => ?_)
  exact congrArg (fun t => t * x2 (ix2 k p)) (scr_read_at arg7.view i x0 x1 _ _ _ _ _ _ _ _ _ hz _ a b k)

/-- A middle step: the contribution added to what the block held. -/
theorem outB_apply (c : Dev nD) (i : grid1.Coords) (arg2 : Memref sig .tc .vmem S32x96x64 .f32) (harg2 : arg2.IsWhole) (arg3 : Memref sig .tc .vmem S32x192x64 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S96x192x128 .f32) (harg6 : arg6.IsWhole) (arg7 : Memref sig .tc .vmem S96x192x128 .bf16) (harg7 : arg7.IsWhole) (hc0 : ¬cond1_0 i) (hc1 : ¬cond1_1 i)
    (x0 : Vec Ideal S32x96x64 .f32) (x1 : Vec Ideal S32x192x64 .f32) (x2 : Vec Ideal S128x128 .bf16) (x3 : Vec Ideal S128 .f32)
    (xo4 : Vec Ideal S96x192x128 .f32) (a : Fin 96) (b : Fin 192) (p : Fin 128) :
    out1_B_4 (F := Ideal) c i arg2 harg2 arg3 harg3 arg4 harg4 arg5 harg5 arg6 harg6 arg7 harg7 hc0 hc1 x0 x1 x2 x3 xo4 (ix3 a b p)
      = xo4 (ix3 a b p) + ∑ k : Fin 128, scrAt (i 1).val x0 x1 a b k * x2 (ix2 k p) := by
  have hz : (![0, 0, 0] : Fin 3 → ℕ) = fun _ => 0 := by funext d; match d with | ⟨0, _⟩ => rfl | ⟨1, _⟩ => rfl | ⟨2, _⟩ => rfl
  have hz2 : (![0, 0] : Fin 2 → ℕ) = fun _ => 0 := by funext d; match d with | ⟨0, _⟩ => rfl | ⟨1, _⟩ => rfl
  unfold out1_B_4
  rw [View.read_writes_eq_canon _ _ _ (cover1_B_4 c i arg2 harg2 arg3 harg3 arg4 harg4 arg5 harg5 arg6 harg6 arg7 harg7 hc0 hc1 x0 x1 x2 x3 xo4)]
  unfold kernelRun1_B
  dsimp only
  sl_unfold_run_names
  rw [View.canon_unit_zero hz]
  simp only [View.readAt_eq_ld, harg2.read_unread, harg3.read_unread, harg4.read_unread, harg6.read_unread,
    View.ld_unit_zero (S := S32x96x64) hz, View.ld_unit_zero (S := S32x192x64) hz, View.ld_unit_zero (S := S128x128) hz2,
    View.ld_unit_zero (S := S96x192x128) hz]
  refine (acc_pay10 _ _ _ a b p).trans ?_
  refine congrArg (fun t => xo4 (ix3 a b p) + t) (Finset.sum_congr rfl fun k _ => ?_)
  exact congrArg (fun t => t * x2 (ix2 k p)) (scr_read_at arg7.view i x0 x1 _ _ _ _ _ _ _ _ _ hz _ a b k)

/-- The last step: the contribution, then the bias. -/
theorem outC_apply (c : Dev nD) (i : grid1.Coords) (arg2 : Memref sig .tc .vmem S32x96x64 .f32) (harg2 : arg2.IsWhole) (arg3 : Memref sig .tc .vmem S32x192x64 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S96x192x128 .f32) (harg6 : arg6.IsWhole) (arg7 : Memref sig .tc .vmem S96x192x128 .bf16) (harg7 : arg7.IsWhole) (hc0 : ¬cond1_0 i) (hc1 : cond1_1 i)
    (x0 : Vec Ideal S32x96x64 .f32) (x1 : Vec Ideal S32x192x64 .f32) (x2 : Vec Ideal S128x128 .bf16) (x3 : Vec Ideal S128 .f32)
    (xo4 : Vec Ideal S96x192x128 .f32) (a : Fin 96) (b : Fin 192) (p : Fin 128) :
    out1_C_4 (F := Ideal) c i arg2 harg2 arg3 harg3 arg4 harg4 arg5 harg5 arg6 harg6 arg7 harg7 hc0 hc1 x0 x1 x2 x3 xo4 (ix3 a b p)
      = (xo4 (ix3 a b p) + ∑ k : Fin 128, scrAt (i 1).val x0 x1 a b k * x2 (ix2 k p)) + x3 (ix1 p) := by
  have hz : (![0, 0, 0] : Fin 3 → ℕ) = fun _ => 0 := by funext d; match d with | ⟨0, _⟩ => rfl | ⟨1, _⟩ => rfl | ⟨2, _⟩ => rfl
  have hz2 : (![0, 0] : Fin 2 → ℕ) = fun _ => 0 := by funext d; match d with | ⟨0, _⟩ => rfl | ⟨1, _⟩ => rfl
  have hz1 : (![0] : Fin 1 → ℕ) = fun _ => 0 := by funext d; match d with | ⟨0, _⟩ => rfl
  unfold out1_C_4
  rw [View.read_writes_eq_canon _ _ _ (cover1_C_4 c i arg2 harg2 arg3 harg3 arg4 harg4 arg5 harg5 arg6 harg6 arg7 harg7 hc0 hc1 x0 x1 x2 x3 xo4)]
  unfold kernelRun1_C
  dsimp only
  sl_unfold_run_names
  rw [View.canon_cons_unit_zero (S := S96x192x128) hz]
  simp only [View.readAt_eq_ld, harg2.read_unread, harg3.read_unread, harg4.read_unread, harg5.read_unread, harg6.read_unread,
    View.ld_unit_zero (S := S32x96x64) hz, View.ld_unit_zero (S := S32x192x64) hz, View.ld_unit_zero (S := S128x128) hz2,
    View.ld_unit_zero (S := S128) hz1, View.ld_unit_zero (S := S96x192x128) hz, View.readCov_unit_zero (S := S96x192x128) _ hz]
  refine (bias_pay1 _ _ a b p).trans ?_
  refine congrArg (fun t => t + x3 (ix1 p)) ?_
  refine (acc_pay10 _ _ _ a b p).trans ?_
  refine congrArg (fun t => xo4 (ix3 a b p) + t) (Finset.sum_congr rfl fun k _ => ?_)
  exact congrArg (fun t => t * x2 (ix2 k p)) (scr_read_at arg7.view i x0 x1 _ _ _ _ _ _ _ _ _ hz _ a b k)

end Cert.KernelIdeal.OPM

end
-- ==== Proof.K1Arr.lean ====
/-
  The second kernel's output array after its region.
  The grid is 2 row tiles × 8 steps, the step innermost. Within a row tile the output block stays in its buffer:
  after step n it holds the first n + 1 slabs' contributions (an induction over the points), after step 7 also the
  bias, and only then is it written back. The two row tiles' blocks tile the array.
-/
import proofs.«414971_j36060545417655_3_alg».proof.Proof.Gen.KernelIdeal.Frame
import proofs.«414971_j36060545417655_3_alg».proof.Proof.K1Piece
import Idealize.ShloMosaic.Lib.Pipeline.Value

set_option maxRecDepth 16384

noncomputable section

namespace Cert.KernelIdeal.OPM

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The region's four operand arrays and the blocks of them a point sees, each at its literal shape. -/
abbrev arrL (c : Dev nD) : Vec Ideal S32x192x64 .f32 := V c main_v1_0
abbrev arrR (c : Dev nD) : Vec Ideal S32x192x64 .f32 := V c main_v1_1
abbrev arrW (c : Dev nD) : Vec Ideal S1024x128 .bf16 := V c main_v4
abbrev arrB (c : Dev nD) : Vec Ideal S128 .f32 := V c main_arg8
abbrev blkL (c : Dev nD) (t : Fin cfg1.N) : Vec Ideal S32x96x64 .f32 := iblk1 V c 0 t
abbrev blkR (c : Dev nD) (t : Fin cfg1.N) : Vec Ideal S32x192x64 .f32 := iblk1 V c 1 t
abbrev blkW (c : Dev nD) (t : Fin cfg1.N) : Vec Ideal S128x128 .bf16 := iblk1 V c 2 t
abbrev blkB (c : Dev nD) (t : Fin cfg1.N) : Vec Ideal S128 .f32 := iblk1 V c 3 t

/-- Row a of the row tile of point n, as a row of the whole residue axis: 96 (n / 8) + a (n / 8 is 0 or 1). -/
def rowOf (n : ℕ) (a : Fin 96) : Fin 192 := ⟨96 * (n / 8 % 2) + a.val, by have := a.isLt; omega⟩

/-- The windows' block indices at point t = 8 * (row tile) + step, decided over the sixteen points. -/
theorem idx_facts : ∀ t : Fin cfg1.N,
    win1_0.index t (0 : Fin 3) = 0 ∧ win1_0.index t (1 : Fin 3) = t.val / 8 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = t.val % 8 ∧ win1_2.index t (1 : Fin 2) = 0
    ∧ win1_3.index t (0 : Fin 1) = 0
    ∧ win1_4.index t (0 : Fin 3) = t.val / 8 ∧ win1_4.index t (1 : Fin 3) = 0 ∧ win1_4.index t (2 : Fin 3) = 0
    ∧ (grid1.coords t 1).val = t.val % 8 :=
  (by decide +kernel : ∀ t : Fin grid1.N, _)

/-- The left projection's block at point t is rows 96 (t / 8) … of the residue axis. -/
theorem blkL_apply (c : Dev nD) (t : Fin cfg1.N) (h : Fin 32) (a : Fin 96) (s : Fin 64) :
    blkL V c t (ix3 h a s) = arrL V c (ix3 h (rowOf t.val a) s) := by
  obtain ⟨e0, e1, e2, -⟩ := idx_facts t
  have hN : t.val < 16 := lt_of_lt_of_eq t.isLt (show cfg1.N = 16 from N_1)
  unfold blkL iblk1
  rw [View.read_apply]
  show V c main_v1_0 _ = V c main_v1_0 _
  congr 1
  funext d
  apply Fin.ext
  match d with
  | ⟨0, _⟩ => show win1_0.index t (0 : Fin 3) * 32 + 1 * h.val = h.val; rw [e0]; omega
  | ⟨1, _⟩ => show win1_0.index t (1 : Fin 3) * 96 + 1 * a.val = 96 * (t.val / 8 % 2) + a.val; rw [e1]; omega
  | ⟨2, _⟩ => show win1_0.index t (2 : Fin 3) * 64 + 1 * s.val = s.val; rw [e2]; omega

/-- The right projection's window is the whole array at every point. -/
theorem blkR_eq (c : Dev nD) (t : Fin cfg1.N) : blkR V c t = arrR V c := by
  obtain ⟨-, -, -, e0, e1, e2, -⟩ := idx_facts t
  funext x
  unfold blkR iblk1
  rw [View.read_apply]
  show V c main_v1_1 _ = V c main_v1_1 _
  congr 1
  funext d
  apply Fin.ext
  match d with
  | ⟨0, _⟩ => show win1_1.index t (0 : Fin 3) * 32 + 1 * (x 0).val = (x 0).val; rw [e0]; omega
  | ⟨1, _⟩ => show win1_1.index t (1 : Fin 3) * 192 + 1 * (x 1).val = (x 1).val; rw [e1]; omega
  | ⟨2, _⟩ => show win1_1.index t (2 : Fin 3) * 64 + 1 * (x 2).val = (x 2).val; rw [e2]; omega

/-- The weights' block at point t is rows 128 (t % 8) … of the flat rows (below 1024, so the reduction mod 1024 is idle). -/
theorem blkW_apply (c : Dev nD) (t : Fin cfg1.N) (k : Fin 128) (p : Fin 128) :
    blkW V c t (ix2 k p) = arrW V c (ix2 ⟨(128 * (t.val % 8) + k.val) % 1024, Nat.mod_lt _ (by decide)⟩ p) := by
  obtain ⟨-, -, -, -, -, -, e0, e1, -⟩ := idx_facts t
  have hk := k.isLt
  unfold blkW iblk1
  rw [View.read_apply]
  show V c main_v4 _ = V c main_v4 _
  congr 1
  funext d
  apply Fin.ext
  match d with
  | ⟨0, _⟩ => show win1_2.index t (0 : Fin 2) * 128 + 1 * k.val = (128 * (t.val % 8) + k.val) % 1024; rw [e0]; omega
  | ⟨1, _⟩ => show win1_2.index t (1 : Fin 2) * 128 + 1 * p.val = p.val; rw [e1]; omega

/-- The bias's window is the whole array at every point. -/
theorem blkB_eq (c : Dev nD) (t : Fin cfg1.N) : blkB V c t = arrB V c := by
  obtain ⟨-, -, -, -, -, -, -, -, e0, -⟩ := idx_facts t
  funext x
  unfold blkB iblk1
  rw [View.read_apply]
  show V c main_arg8 _ = V c main_arg8 _
  congr 1
  funext d
  apply Fin.ext
  match d with
  | ⟨0, _⟩ => show win1_3.index t (0 : Fin 1) * 128 + 1 * (x 0).val = (x 0).val; rw [e0]; omega

/-- Lane k of the scratch at step t % 8, from the point's blocks, is the specification's outer-product entry at the tile's row. -/
theorem scr_eq (c : Dev nD) (t : Fin cfg1.N) (a : Fin 96) (b : Fin 192) (k : Fin 128) :
    scrAt (t.val % 8) (blkL V c t) (blkR V c t) a b k
      = Opm.catAt (arrL V c) (arrR V c) (t.val % 8) (rowOf t.val a) b k := by
  unfold scrAt Opm.catAt
  refine Finset.sum_congr rfl fun s _ => ?_
  rw [blkL_apply V c t (Opm.dOf (t.val % 8) k) a s, blkL_apply V c t (Opm.eOf k) a s, blkR_eq V c t]

/-- What point t adds at (a, b, p) is slab t % 8's contribution at the tile's row. -/
theorem step_eq (c : Dev nD) (t : Fin cfg1.N) (a : Fin 96) (b : Fin 192) (p : Fin 128) :
    (∑ k : Fin 128, scrAt (grid1.coords t 1).val (blkL V c t) (blkR V c t) a b k * blkW V c t (ix2 k p))
      = Opm.contribAt (arrL V c) (arrR V c) (arrW V c) (t.val % 8) (rowOf t.val a) b p := by
  obtain ⟨-, -, -, -, -, -, -, -, -, -, -, -, eg⟩ := idx_facts t
  rw [eg]
  unfold Opm.contribAt
  refine Finset.sum_congr rfl fun k _ => ?_
  rw [scr_eq V c t a b k, blkW_apply V c t k p]

/-- THE ACCUMULATION. After point n the output block holds, at (a, b, p), the first n % 8 + 1 slabs' contributions at the
    tile's row; after a tile's last step (n % 8 = 7) all eight and the bias. By induction over the points: a tile's first
    step starts from zero, every other step adds its slab to what the step before left (same tile, so the same row). -/
theorem acc_inv (c : Dev nD) : ∀ (n : ℕ) (hn : n < cfg1.N) (a : Fin 96) (b : Fin 192) (p : Fin 128),
    (¬ n % 8 = 7 → outsAt1 V c n hn (ix3 a b p)
        = Opm.accAt (arrL V c) (arrR V c) (arrW V c) (n % 8 + 1) (rowOf n a) b p)
    ∧ (n % 8 = 7 → outsAt1 V c n hn (ix3 a b p)
        = Opm.zSlabAt (arrL V c) (arrR V c) (arrW V c) (arrB V c) (rowOf n a) b p) := by
  intro n
  induction n using Nat.strong_induction_on with
  | _ n ih =>
    intro hn a b p
    have hN : n < 16 := lt_of_lt_of_eq hn (show cfg1.N = 16 from N_1)
    by_cases h0 : n % 8 = 0
    · have h1 : ¬ n % 8 = 7 := by omega
      refine ⟨fun _ => ?_, fun h => absurd h h1⟩
      refine (congrFun (outsAt1_A V c ⟨n, hn⟩ h0 h1) (ix3 a b p)).trans ?_
      refine (outA_apply c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) scM1_0 (Memref.isWhole_whole _) ((hcond1_0 ⟨n, hn⟩).mpr h0) (fun h => h1 ((hcond1_1 ⟨n, hn⟩).mp h)) (blkL V c ⟨n, hn⟩) (blkR V c ⟨n, hn⟩) (blkW V c ⟨n, hn⟩) (blkB V c ⟨n, hn⟩) a b p).trans ?_
      rw [step_eq V c ⟨n, hn⟩ a b p]
      show 0 + Opm.contribAt (arrL V c) (arrR V c) (arrW V c) (n % 8) (rowOf n a) b p = _
      rw [h0]
      unfold Opm.accAt
      rw [Finset.sum_range_succ, Finset.sum_range_zero]
    · have hr : rowOf (n - 1) a = rowOf n a := Fin.ext (by show 96 * ((n - 1) / 8 % 2) + a.val = 96 * (n / 8 % 2) + a.val; omega)
      have hp : ¬ (n - 1) % 8 = 7 := by omega
      have hprev := (ih (n - 1) (by omega) (Nat.lt_of_le_of_lt (Nat.sub_le _ _) hn) a b p).1 hp
      rw [hr, show (n - 1) % 8 + 1 = n % 8 from by omega] at hprev
      by_cases h1 : n % 8 = 7
      · refine ⟨fun h => absurd h1 h, fun _ => ?_⟩
        refine (congrFun (outsAt1_C V c ⟨n, hn⟩ h0 h1) (ix3 a b p)).trans ?_
        refine (outC_apply c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) scM1_0 (Memref.isWhole_whole _) (fun h => h0 ((hcond1_0 ⟨n, hn⟩).mp h)) ((hcond1_1 ⟨n, hn⟩).mpr h1) (blkL V c ⟨n, hn⟩) (blkR V c ⟨n, hn⟩) (blkW V c ⟨n, hn⟩) (blkB V c ⟨n, hn⟩) (outsAt1 V c (n - 1) (Nat.lt_of_le_of_lt (Nat.sub_le _ _) hn)) a b p).trans ?_
        rw [step_eq V c ⟨n, hn⟩ a b p, hprev, blkB_eq V c ⟨n, hn⟩]
        show Opm.accAt (arrL V c) (arrR V c) (arrW V c) (n % 8) (rowOf n a) b p + Opm.contribAt (arrL V c) (arrR V c) (arrW V c) (n % 8) (rowOf n a) b p + arrB V c (ix1 p) = _
        rw [h1]
        unfold Opm.zSlabAt Opm.accAt
        rw [Finset.sum_range_succ _ 7]
      · refine ⟨fun _ => ?_, fun h => absurd h h1⟩
        refine (congrFun (outsAt1_B V c ⟨n, hn⟩ h0 h1) (ix3 a b p)).trans ?_
        refine (outB_apply c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) scM1_0 (Memref.isWhole_whole _) (fun h => h0 ((hcond1_0 ⟨n, hn⟩).mp h)) (fun h => h1 ((hcond1_1 ⟨n, hn⟩).mp h)) (blkL V c ⟨n, hn⟩) (blkR V c ⟨n, hn⟩) (blkW V c ⟨n, hn⟩) (blkB V c ⟨n, hn⟩) (outsAt1 V c (n - 1) (Nat.lt_of_le_of_lt (Nat.sub_le _ _) hn)) a b p).trans ?_
        rw [step_eq V c ⟨n, hn⟩ a b p, hprev]
        unfold Opm.accAt
        rw [Finset.sum_range_succ]

/-- The specification's array: every entry the slab-by-slab result of the four operand arrays. -/
abbrev slabArr (c : Dev nD) : Vec Ideal S192x192x128 .f32 :=
  fun y => Opm.zSlabAt (arrL V c) (arrR V c) (arrW V c) (arrB V c) (y 0) (y 1) (y 2)

/-- What a tile's last point writes back is its block of the specification's array: the block's row a is
    row 96 (t / 8) + a of the array, and the invariant after the last step is the full result there. -/
theorem flushed_eq (c : Dev nD) (t : Fin cfg1.N) (hf : (cfg1.win 4).flush t = true) :
    (dat1 V c).flushed 4 t = ((cfg1.win 4).blk t).view.read (Elt Ideal) (slabArr V c) := by
  have h7 : t.val % 8 = 7 := (flush1_4 t).mp hf
  have hN : t.val < 16 := lt_of_lt_of_eq t.isLt (show cfg1.N = 16 from N_1)
  obtain ⟨-, -, -, -, -, -, -, -, -, e0, e1, e2, -⟩ := idx_facts t
  show (cfg1.win 4).cut (grid1.coords t) ((dat1 V c).after 4 t) = _
  rw [after1_4]
  funext j
  obtain ⟨a, b, p, rfl⟩ : ∃ (a : Fin 96) (b : Fin 192) (p : Fin 128), j = ix3 a b p := ⟨j 0, j 1, j 2, eq_ix3 j⟩
  rw [View.read_apply]
  refine ((acc_inv V c t.val t.isLt a b p).2 h7).trans ?_
  show Opm.zSlabAt (arrL V c) (arrR V c) (arrW V c) (arrB V c) (rowOf t.val a) b p
      = Opm.zSlabAt (arrL V c) (arrR V c) (arrW V c) (arrB V c)
          ((((cfg1.win 4).blk t).view.emb (ix3 a b p)) 0) ((((cfg1.win 4).blk t).view.emb (ix3 a b p)) 1) ((((cfg1.win 4).blk t).view.emb (ix3 a b p)) 2)
  have r0 : rowOf t.val a = (((cfg1.win 4).blk t).view.emb (ix3 a b p)) 0 :=
    Fin.ext (by show 96 * (t.val / 8 % 2) + a.val = win1_4.index t (0 : Fin 3) * 96 + 1 * a.val; rw [e0]; omega)
  have r1 : b = (((cfg1.win 4).blk t).view.emb (ix3 a b p)) 1 :=
    Fin.ext (by show b.val = win1_4.index t (1 : Fin 3) * 192 + 1 * b.val; rw [e1]; omega)
  have r2 : p = (((cfg1.win 4).blk t).view.emb (ix3 a b p)) 2 :=
    Fin.ext (by show p.val = win1_4.index t (2 : Fin 3) * 128 + 1 * p.val; rw [e2]; omega)
  rw [← r0, ← r1, ← r2]

/-- An index of the array is in point t's block iff each coordinate is in the block's range on its axis. -/
theorem mem_blk (t : Fin cfg1.N) (i : S192x192x128.Idx) :
    i ∈ ((cfg1.win 4).blk t).view.set ↔ ∀ a : Fin 3, win1_4.index t a * S96x192x128.size a ≤ (i a).val ∧ (i a).val < win1_4.index t a * S96x192x128.size a + S96x192x128.size a := by
  show i ∈ ((View.whole main_v5).slice (win1_4.rect t)).set ↔ _
  rw [View.set_slice_whole, Rect.mem_set_unit]
  exact Iff.rfl

/-- The two row tiles' blocks tile the array: row r lies in the block written back at the last point of tile r / 96. -/
theorem cover (i : S192x192x128.Idx) :
    ∃ t : Fin cfg1.N, (cfg1.win 4).flush t = true ∧ i ∈ ((cfg1.win 4).blk t).view.set := by
  have h0 : (i 0).val < 192 := (i 0).isLt
  have h1 : (i 1).val < 192 := (i 1).isLt
  have h2 : (i 2).val < 128 := (i 2).isLt
  obtain ⟨t, ht⟩ : ∃ t : Fin cfg1.N, t.val = 8 * ((i 0).val / 96) + 7 :=
    ⟨⟨8 * ((i 0).val / 96) + 7, by rw [show cfg1.N = 16 from N_1]; omega⟩, rfl⟩
  obtain ⟨-, -, -, -, -, -, -, -, -, e0, e1, e2, -⟩ := idx_facts t
  refine ⟨t, (flush1_4 t).mpr (by omega), ?_⟩
  rw [mem_blk]
  intro a
  match a with
  | ⟨0, _⟩ => show win1_4.index t (0 : Fin 3) * 96 ≤ (i 0).val ∧ (i 0).val < win1_4.index t (0 : Fin 3) * 96 + 96; rw [e0]; omega
  | ⟨1, _⟩ => show win1_4.index t (1 : Fin 3) * 192 ≤ (i 1).val ∧ (i 1).val < win1_4.index t (1 : Fin 3) * 192 + 192; rw [e1]; omega
  | ⟨2, _⟩ => show win1_4.index t (2 : Fin 3) * 128 ≤ (i 2).val ∧ (i 2).val < win1_4.index t (2 : Fin 3) * 128 + 128; rw [e2]; omega

/-- Output window 4's array after the region: the slab-by-slab result of the region's four operands. -/
theorem final1_4 (c : Dev nD) :
    (dat1 V c).arrAt 4 cfg1.N
      = fun y => Opm.zSlabAt (V c main_v1_0) (V c main_v1_1) (V c main_v4) (V c main_arg8) (y 0) (y 1) (y 2) :=
  (dat1 V c).arrAt_eq_of_cover 4 (slabArr V c) (flushed_eq V c) cover

end Cert.KernelIdeal.OPM

end
-- ==== Proof.Algebra.lean ====
/-
  The two arrangements of the outer-product-mean sum are equal on the extended reals.
  Multiplication there is commutative and associative (with zero), and addition is a commutative monoid, so
  the four factors may be regrouped, a constant factor moved from the mean to the weights, and a sum over 1024
  flat rows cut into eight slabs of 128, at any values, infinite ones included. Dividing by 64 is multiplying by
  1/64 on every extended real.
-/
import proofs.«414971_j36060545417655_3_alg».proof.Proof.Spec
import Idealize.ShloMosaic.PureOps.Ideal
import Mathlib.Algebra.BigOperators.Fin
import Mathlib.Data.EReal.Basic

noncomputable section

namespace Cert.Opm

open Idealize.ShloMosaic Idealize.ShloMosaic.ValueIdx

/-- The divisor word of the mean denotes the real 64. -/
theorem w64_eq : w64 = ((64 : ℝ) : EReal) := by
  simp [Ideal.ofBits, Ideal.ieee, -EReal.coe_mul]; norm_num

/-- The factor word of the mean denotes the real 1 / 64. -/
theorem wInv64_eq : wInv64 = ((1 / 64 : ℝ) : EReal) := by
  simp [Ideal.ofBits, Ideal.ieee, -EReal.coe_mul]; norm_num

/-- Dividing by the word 64 is multiplying by the word 1 / 64, at every extended real. -/
theorem div_w64 (x : EReal) : Ideal.div x w64 = x * wInv64 := by
  rw [w64_eq, wInv64_eq]
  exact Ideal.div_coe (by norm_num) x

/-- A sum over the 1024 flat rows is the sum over eight slabs of the sums over each slab's 128 rows:
    flat row K is row k = K % 128 of slab q = K / 128, and 128 q + k < 1024 for q < 8, k < 128. -/
theorem sum_slabs {M : Type} [AddCommMonoid M] (F : Fin 1024 → M) :
    ∑ K : Fin 1024, F K
      = ∑ q ∈ Finset.range 8, ∑ k : Fin 128, F ⟨(128 * q + k.val) % 1024, Nat.mod_lt _ (by decide)⟩ := by
  rw [← Equiv.sum_comp (finProdFinEquiv : Fin 8 × Fin 128 ≃ Fin 1024) F, Fintype.sum_prod_type,
    ← Fin.sum_univ_eq_sum_range
      (fun q => ∑ k : Fin 128, F ⟨(128 * q + k.val) % 1024, Nat.mod_lt _ (by decide)⟩) 8]
  refine Finset.sum_congr rfl fun q _ => Finset.sum_congr rfl fun k _ => ?_
  congr 1
  apply Fin.ext
  have hq := q.isLt
  have hk := k.isLt
  simp only [finProdFinEquiv_apply_val]
  omega

/-- One flat row's term: the mean of (L_d R_d)(L_e R_e) against a weight is the sum of (L_d L_e)(R_d R_e)
    against the weight scaled by 1 / 64, at the row 128 q + k of slab q < 8, where
    (4 q + k / 32) % 32 = (128 q + k) / 32 and k % 32 = (128 q + k) % 32. -/
theorem term_eq (L R : FVec Ideal SP .f32) (Wo : FVec Ideal SWo .f32) (i j : Fin 192) (p : Fin 128)
    (q : ℕ) (hq : q < 8) (k : Fin 128) :
    catAt L R q i j k * scaled Wo (ix2 ⟨(128 * q + k.val) % 1024, Nat.mod_lt _ (by decide)⟩ p)
      = outerAt L R i j ⟨(128 * q + k.val) % 1024, Nat.mod_lt _ (by decide)⟩
          * Wo (ix2 ⟨(128 * q + k.val) % 1024, Nat.mod_lt _ (by decide)⟩ p) := by
  have hk := k.isLt
  have hd : (⟨((128 * q + k.val) % 1024) / 32, by omega⟩ : Fin 32) = dOf q k :=
    Fin.ext (by simp only [dOf]; omega)
  have he : (⟨((128 * q + k.val) % 1024) % 32, Nat.mod_lt _ (by decide)⟩ : Fin 32) = eOf k :=
    Fin.ext (by simp only [eOf]; omega)
  unfold catAt outerAt scaled
  simp only [hd, he]
  rw [div_w64]
  have hs : (∑ s : Fin 64, (L (ix3 (dOf q k) i s) * R (ix3 (dOf q k) j s))
                * (L (ix3 (eOf k) i s) * R (ix3 (eOf k) j s)))
      = ∑ s : Fin 64, (L (ix3 (dOf q k) i s) * L (ix3 (eOf k) i s))
                * (R (ix3 (dOf q k) j s) * R (ix3 (eOf k) j s)) :=
    Finset.sum_congr rfl fun s _ => mul_mul_mul_comm _ _ _ _
  rw [hs, mul_assoc, mul_comm wInv64]

/-- The slab-by-slab result over the weights scaled by 1/64 is the all-at-once result over the weights. -/
theorem zSlab_eq_zFlat (L R : FVec Ideal SP .f32) (Wo : FVec Ideal SWo .f32) (bo : FVec Ideal SBo .f32)
    (i j : Fin 192) (p : Fin 128) :
    zSlabAt L R (scaled Wo) bo i j p = zFlatAt L R Wo bo i j p := by
  unfold zSlabAt zFlatAt accAt contribAt
  rw [sum_slabs (fun K => outerAt L R i j K * Wo (ix2 K p))]
  congr 1
  exact Finset.sum_congr rfl fun q hq => Finset.sum_congr rfl fun k _ =>
    term_eq L R Wo i j p q (Finset.mem_range.mp hq) k

end Cert.Opm

end
-- ==== Proof.KValue.lean ====
/-
  The idealized kernel's result as one function of its nine arguments.
  Reading back from the result buffer: it is the second region's output array with a unit axis added; that array is
  the slab-by-slab result of the two projections the first region wrote, of the output weights scaled by 1/64 and of
  the output bias; the projections are those of the normalised input; and the slab-by-slab arrangement equals the
  all-at-once one.
-/
import proofs.«414971_j36060545417655_3_alg».proof.Proof.KRun
import proofs.«414971_j36060545417655_3_alg».proof.Proof.KHost
import proofs.«414971_j36060545417655_3_alg».proof.Proof.K0Arr
import proofs.«414971_j36060545417655_3_alg».proof.Proof.K1Arr
import proofs.«414971_j36060545417655_3_alg».proof.Proof.Algebra

set_option maxRecDepth 16384

noncomputable section

namespace Cert.KernelIdeal.OPM

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The left projection as the second region finds it. -/
theorem left_eq (c : Dev nD) :
    (V3 m ρ c main_v1_0 : FVec Ideal Opm.SP .f32)
      = Opm.proj (m ((c : Thread nD τ).loc main_arg0)) (m ((c : Thread nD τ).loc main_arg1)) (m ((c : Thread nD τ).loc main_arg2))
          (m ((c : Thread nD τ).loc main_arg3)) (m ((c : Thread nD τ).loc main_arg4)) := by
  refine (V3_v1_0 m ρ c).trans ((final0_7 (V1 m ρ) c (m ((c : Thread nD τ).loc main_arg0)) (V1_v0 m ρ c)).trans ?_)
  rw [V1_arg1, V1_arg2, V1_arg3, V1_arg4]

/-- The right projection as the second region finds it. -/
theorem right_eq (c : Dev nD) :
    (V3 m ρ c main_v1_1 : FVec Ideal Opm.SP .f32)
      = Opm.proj (m ((c : Thread nD τ).loc main_arg0)) (m ((c : Thread nD τ).loc main_arg1)) (m ((c : Thread nD τ).loc main_arg2))
          (m ((c : Thread nD τ).loc main_arg5)) (m ((c : Thread nD τ).loc main_arg6)) := by
  refine (V3_v1_1 m ρ c).trans ((final0_8 (V1 m ρ) c (m ((c : Thread nD τ).loc main_arg0)) (V1_v0 m ρ c)).trans ?_)
  rw [V1_arg1, V1_arg2, V1_arg5, V1_arg6]

/-- The result buffer's final contents are the specification's result of the arguments. -/
theorem value_v6 (c : Dev nD) :
    W5 m ρ c (Proc.devRef .tc main_v6) = Opm.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext (y : S1x192x192x128.Idx)
  obtain ⟨i, j, p, rfl⟩ : ∃ (i : Fin 192) (j : Fin 192) (p : Fin 128), y = ix4 (0 : Fin 1) i j p :=
    ⟨y 1, y 2, y 3, funext fun a => by
      match a with
      | ⟨0, _⟩ => exact Fin.ext (Nat.lt_one_iff.mp (show (y 0).val < 1 from (y 0).isLt))
      | ⟨1, _⟩ => rfl
      | ⟨2, _⟩ => rfl
      | ⟨3, _⟩ => rfl⟩
  refine (W5_v6 m ρ c i j p).trans ((congrFun (final1_4 (V3 m ρ) c) (ix3 i j p)).trans ?_)
  show Opm.zSlabAt (V3 m ρ c main_v1_0) (V3 m ρ c main_v1_1) (V3 m ρ c main_v4) (V3 m ρ c main_arg8) i j p = _
  rw [left_eq, right_eq, V3_v4, V3_arg8, Opm.zSlab_eq_zFlat]
  rfl

/-- The idealized kernel's run with its result named: every weakly fair execution terminates with the result buffer at
    the specification's function of the arguments, the arguments unchanged. -/
theorem run : θ_run defs (onTc (τ := τ) (main (F := Ideal))) ⟨m, fun _ => 0, ρ⟩ (fun r => ∀ c : Dev nD,
      r.2.mem ((c.tc : Thread nD τ).loc main_v6) = Opm.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (value_v6 m ρ c), (h c).2⟩) (run_out m ρ)

end Cert.KernelIdeal.OPM

end
-- ==== Proof.RProj.lean ====
/-
  The reference's two projections, read at an index.
  The reference normalises every row of 256 channels of the input, contracts the normalised rows with a weight
  matrix (the weights on the left of each product), re-lays the result to (1, residue, sequence, hidden) and adds a
  bias: entry (0, r, s, h) is the projection at hidden channel h, residue r, sequence s.
-/
import proofs.«414971_j36060545417655_3_alg».proof.Proof.Gen.ReferenceIdeal.Read
import proofs.«414971_j36060545417655_3_alg».proof.Proof.Spec

noncomputable section

namespace Cert.ReferenceIdeal.OPM

open Cert.ReferenceIdeal Cert.ReferenceIdeal.Gen Cert.ReferenceIdeal.Read Idealize.ShloMosaic Idealize.ShloMosaic.TcCoe Idealize.ShloMosaic.ValueIdx Idealize.SL.Sem

/-- The row of the mean's sum: the reduce over the last axis, read through the two broadcasts at
    (0, s, r, k), visits (0, s, r, k') for every channel k'. -/
theorem idx_mean (s : Fin 64) (r : Fin 192) (k k' : Fin 256) :
    idx_main_v0 (idx_main_v1 (idx_main_v11 (ix4 0 s r k))) k' = ix4 0 s r k' :=
  funext fun a => Fin.ext (by match a with | ⟨0, _⟩ => rfl | ⟨1, _⟩ => rfl | ⟨2, _⟩ => rfl | ⟨3, _⟩ => rfl)

/-- The same row, read through the broadcast the variance's centring uses. -/
theorem idx_mean' (s : Fin 64) (r : Fin 192) (k k' : Fin 256) :
    idx_main_v0 (idx_main_v1 (idx_main_v4 (ix4 0 s r k))) k' = ix4 0 s r k' :=
  funext fun a => Fin.ext (by match a with | ⟨0, _⟩ => rfl | ⟨1, _⟩ => rfl | ⟨2, _⟩ => rfl | ⟨3, _⟩ => rfl)

/-- The row of the variance's sum. -/
theorem idx_var (s : Fin 64) (r : Fin 192) (k k' : Fin 256) :
    idx_main_v7 (idx_main_v8 (idx_main_v16 (ix4 0 s r k))) k' = ix4 0 s r k' :=
  funext fun a => Fin.ext (by match a with | ⟨0, _⟩ => rfl | ⟨1, _⟩ => rfl | ⟨2, _⟩ => rfl | ⟨3, _⟩ => rfl)

/-- The scale and the shift are read at the channel alone. -/
theorem idx_scale (s : Fin 64) (r : Fin 192) (k : Fin 256) :
    idx_main_v18 (idx_main_v19 (ix4 0 s r k)) = ix1 k :=
  funext fun a => Fin.ext (by match a with | ⟨0, _⟩ => rfl)

theorem idx_shift (s : Fin 64) (r : Fin 192) (k : Fin 256) :
    idx_main_v21 (idx_main_v22 (ix4 0 s r k)) = ix1 k :=
  funext fun a => Fin.ext (by match a with | ⟨0, _⟩ => rfl)

/-- The normalised input: entry (0, s, r, k) of the reference's layer norm is the specification's
    normalised row (s, r) at channel k. -/
theorem xn_apply (x0 : (⟨S1x64x192x256, .f32⟩ : BufTy).Contents (Elt Ideal)) (x1 x2 : (⟨S256, .f32⟩ : BufTy).Contents (Elt Ideal))
    (s : Fin 64) (r : Fin 192) (k : Fin 256) :
    val_main_v23 (F := Ideal) x0 x1 x2 (ix4 0 s r k) = Opm.xnAt x0 x1 x2 s r k := by
  simp only [val_main_v23_apply, val_main_v22_apply, val_main_v21_apply, val_main_v20_apply, val_main_v19_apply,
    val_main_v18_apply, val_main_v17_apply, val_main_v16_apply, val_main_v15_apply, val_main_v14_apply,
    val_main_v13_apply, val_main_cst_3_apply, val_main_v12_apply, val_main_v11_apply, val_main_v10_apply,
    val_main_v9_apply, val_main_cst_2_apply, val_main_v8_apply, val_main_v7_apply, val_main_cst_1_apply,
    val_main_v6_apply, val_main_v5_apply, val_main_v4_apply, val_main_v3_apply, val_main_v2_apply,
    val_main_cst_0_apply, val_main_v1_apply, val_main_v0_apply, val_main_cst_apply]
  simp only [idx_mean, idx_var, idx_mean', idx_scale, idx_shift,
    Ideal.hostDivf_def, Ideal.hostUnary_rsqrt_def, Ideal.mulf_def, Ideal.addf_def, Ideal.subf_def, Ideal.ofBits_def,
    Ideal.ofBits_zero_f32, zero_add]
  rfl

/-- The weights' index in the contraction: the product at channel k reads the weight (k, h). -/
theorem lidx_left (r : Fin 192) (s : Fin 64) (h : Fin 32) (k : Fin 256) :
    lidx_main_v24 (idx_main_v25 (ix4 0 r s h)) k = ix2 k h :=
  funext fun a => Fin.ext (by match a with | ⟨0, _⟩ => rfl | ⟨1, _⟩ => rfl)

/-- The normalised input's index in the contraction: after the transposition, entry (0, r, s, h)
    reads the normalised input at (0, s, r, k). -/
theorem ridx_left (r : Fin 192) (s : Fin 64) (h : Fin 32) (k : Fin 256) :
    ridx_main_v24 (idx_main_v25 (ix4 0 r s h)) k = ix4 0 s r k :=
  funext fun a => Fin.ext (by match a with | ⟨0, _⟩ => rfl | ⟨1, _⟩ => rfl | ⟨2, _⟩ => rfl | ⟨3, _⟩ => rfl)

/-- The bias is read at the hidden channel alone. -/
theorem idx_bias_left (r : Fin 192) (s : Fin 64) (h : Fin 32) :
    idx_main_v26 (idx_main_v27 (ix4 0 r s h)) = ix1 h :=
  funext fun a => Fin.ext (by match a with | ⟨0, _⟩ => rfl)

theorem lidx_right (r : Fin 192) (s : Fin 64) (h : Fin 32) (k : Fin 256) :
    lidx_main_v29 (idx_main_v30 (ix4 0 r s h)) k = ix2 k h :=
  funext fun a => Fin.ext (by match a with | ⟨0, _⟩ => rfl | ⟨1, _⟩ => rfl)

theorem ridx_right (r : Fin 192) (s : Fin 64) (h : Fin 32) (k : Fin 256) :
    ridx_main_v29 (idx_main_v30 (ix4 0 r s h)) k = ix4 0 s r k :=
  funext fun a => Fin.ext (by match a with | ⟨0, _⟩ => rfl | ⟨1, _⟩ => rfl | ⟨2, _⟩ => rfl | ⟨3, _⟩ => rfl)

theorem idx_bias_right (r : Fin 192) (s : Fin 64) (h : Fin 32) :
    idx_main_v31 (idx_main_v32 (ix4 0 r s h)) = ix1 h :=
  funext fun a => Fin.ext (by match a with | ⟨0, _⟩ => rfl)

/-- The left projection at (0, r, s, h). -/
theorem left_apply (x0 : (⟨S1x64x192x256, .f32⟩ : BufTy).Contents (Elt Ideal)) (x1 x2 : (⟨S256, .f32⟩ : BufTy).Contents (Elt Ideal)) (x3 : (⟨S256x32, .f32⟩ : BufTy).Contents (Elt Ideal)) (x4 : (⟨S32, .f32⟩ : BufTy).Contents (Elt Ideal))
    (r : Fin 192) (s : Fin 64) (h : Fin 32) :
    val_main_v28 (F := Ideal) x0 x1 x2 x3 x4 (ix4 0 r s h) = Opm.projAt x0 x1 x2 x3 x4 h r s := by
  simp only [val_main_v28_apply, val_main_v27_apply, val_main_v26_apply, val_main_v25_apply, val_main_v24_apply]
  simp only [lidx_left, ridx_left, idx_bias_left, xn_apply, Ideal.addf_def]
  -- the reference multiplies weight by input, the specification input by weight
  exact congrArg (· + x4 (ix1 h)) (Finset.sum_congr rfl fun k _ => mul_comm _ _)

/-- The right projection at (0, r, s, h). -/
theorem right_apply (x0 : (⟨S1x64x192x256, .f32⟩ : BufTy).Contents (Elt Ideal)) (x1 x2 : (⟨S256, .f32⟩ : BufTy).Contents (Elt Ideal)) (x5 : (⟨S256x32, .f32⟩ : BufTy).Contents (Elt Ideal)) (x6 : (⟨S32, .f32⟩ : BufTy).Contents (Elt Ideal))
    (r : Fin 192) (s : Fin 64) (h : Fin 32) :
    val_main_v33 (F := Ideal) x0 x1 x2 x5 x6 (ix4 0 r s h) = Opm.projAt x0 x1 x2 x5 x6 h r s := by
  simp only [val_main_v33_apply, val_main_v32_apply, val_main_v31_apply, val_main_v30_apply, val_main_v29_apply]
  simp only [lidx_right, ridx_right, idx_bias_right, xn_apply, Ideal.addf_def]
  exact congrArg (· + x6 (ix1 h)) (Finset.sum_congr rfl fun k _ => mul_comm _ _)

end Cert.ReferenceIdeal.OPM

end
-- ==== Proof.ROut.lean ====
/-
  The reference's result, read at an index.
  From the two projections the reference forms p[i, j, s, d] = left[i, s, d] · right[j, s, d], contracts p with
  itself over the 64 sequences for every pair (d, e), divides by 64, flattens (d, e) to 32 d + e, contracts with the
  output weights over the 1024 flat rows and adds the bias: the all-at-once arrangement of the specification.
-/
import proofs.«414971_j36060545417655_3_alg».proof.Proof.Gen.ReferenceIdeal.Read
import proofs.«414971_j36060545417655_3_alg».proof.Proof.RProj
import proofs.«414971_j36060545417655_3_alg».proof.Proof.Spec

noncomputable section

namespace Cert.ReferenceIdeal.OPM

open Cert.ReferenceIdeal Cert.ReferenceIdeal.Gen Cert.ReferenceIdeal.Read Idealize.ShloMosaic Idealize.ShloMosaic.TcCoe Idealize.ShloMosaic.ValueIdx Idealize.SL.Sem

/-- The product of the two broadcast projections at (0, i, j, s, d): the left projection at residue i times the
    right projection at residue j, both at sequence s and hidden channel d. -/
theorem prod_apply (x0 : (⟨S1x64x192x256, .f32⟩ : BufTy).Contents (Elt Ideal)) (x1 x2 : (⟨S256, .f32⟩ : BufTy).Contents (Elt Ideal)) (x3 : (⟨S256x32, .f32⟩ : BufTy).Contents (Elt Ideal)) (x4 : (⟨S32, .f32⟩ : BufTy).Contents (Elt Ideal))
    (x5 : (⟨S256x32, .f32⟩ : BufTy).Contents (Elt Ideal)) (x6 : (⟨S32, .f32⟩ : BufTy).Contents (Elt Ideal))
    (i j : Fin 192) (s : Fin 64) (d : Fin 32) :
    val_main_v38 (F := Ideal) x0 x1 x2 x3 x4 x5 x6 (ix5 (0 : Fin 1) i j s d)
      = Opm.projAt x0 x1 x2 x3 x4 d i s * Opm.projAt x0 x1 x2 x5 x6 d j s := by
  have hl : idx_main_v34 (idx_main_v36 (ix5 (0 : Fin 1) i j s d)) = ix4 (0 : Fin 1) i s d :=
    funext fun a => Fin.ext (by match a with | ⟨0, _⟩ => rfl | ⟨1, _⟩ => rfl | ⟨2, _⟩ => rfl | ⟨3, _⟩ => rfl)
  have hr : idx_main_v35 (idx_main_v37 (ix5 (0 : Fin 1) i j s d)) = ix4 (0 : Fin 1) j s d :=
    funext fun a => Fin.ext (by match a with | ⟨0, _⟩ => rfl | ⟨1, _⟩ => rfl | ⟨2, _⟩ => rfl | ⟨3, _⟩ => rfl)
  rw [val_main_v38_apply, val_main_v36_apply, val_main_v34_apply, val_main_v37_apply, val_main_v35_apply, hl, hr,
    left_apply, right_apply, Ideal.mulf_def]

/-- The mean over the sequences at (0, i, j, d, e): the sum over s of the products at (d) and at (e), divided by the
    word for 64. -/
theorem mean_apply (x0 : (⟨S1x64x192x256, .f32⟩ : BufTy).Contents (Elt Ideal)) (x1 x2 : (⟨S256, .f32⟩ : BufTy).Contents (Elt Ideal)) (x3 : (⟨S256x32, .f32⟩ : BufTy).Contents (Elt Ideal)) (x4 : (⟨S32, .f32⟩ : BufTy).Contents (Elt Ideal))
    (x5 : (⟨S256x32, .f32⟩ : BufTy).Contents (Elt Ideal)) (x6 : (⟨S32, .f32⟩ : BufTy).Contents (Elt Ideal))
    (i j : Fin 192) (d e : Fin 32) :
    val_main_v41 (F := Ideal) x0 x1 x2 x3 x4 x5 x6 (ix5 (0 : Fin 1) i j d e)
      = Ideal.div (∑ s : Fin 64,
          (Opm.projAt x0 x1 x2 x3 x4 d i s * Opm.projAt x0 x1 x2 x5 x6 d j s)
            * (Opm.projAt x0 x1 x2 x3 x4 e i s * Opm.projAt x0 x1 x2 x5 x6 e j s)) Opm.w64 := by
  have hl : ∀ s : Fin 64, lidx_main_v39 (ix5 (0 : Fin 1) i j d e) s = ix5 (0 : Fin 1) i j s d := fun s =>
    funext fun a => Fin.ext (by match a with | ⟨0, _⟩ => rfl | ⟨1, _⟩ => rfl | ⟨2, _⟩ => rfl | ⟨3, _⟩ => rfl | ⟨4, _⟩ => rfl)
  have hr : ∀ s : Fin 64, ridx_main_v39 (ix5 (0 : Fin 1) i j d e) s = ix5 (0 : Fin 1) i j s e := fun s =>
    funext fun a => Fin.ext (by match a with | ⟨0, _⟩ => rfl | ⟨1, _⟩ => rfl | ⟨2, _⟩ => rfl | ⟨3, _⟩ => rfl | ⟨4, _⟩ => rfl)
  rw [val_main_v41_apply, val_main_v39_apply, val_main_v40_apply, val_main_cst_4_apply, Ideal.hostDivf_def, Ideal.ofBits_def]
  simp only [hl, hr, prod_apply]

/-- The reference's result array is the specification's, as a function of the nine arguments. -/
theorem out_eq (x0 : (⟨S1x64x192x256, .f32⟩ : BufTy).Contents (Elt Ideal)) (x1 x2 : (⟨S256, .f32⟩ : BufTy).Contents (Elt Ideal)) (x3 : (⟨S256x32, .f32⟩ : BufTy).Contents (Elt Ideal)) (x4 : (⟨S32, .f32⟩ : BufTy).Contents (Elt Ideal))
    (x5 : (⟨S256x32, .f32⟩ : BufTy).Contents (Elt Ideal)) (x6 : (⟨S32, .f32⟩ : BufTy).Contents (Elt Ideal)) (x7 : (⟨S1024x128, .f32⟩ : BufTy).Contents (Elt Ideal)) (x8 : (⟨S128, .f32⟩ : BufTy).Contents (Elt Ideal)) :
    val_main_v46 (F := Ideal) x0 x1 x2 x3 x4 x5 x6 x7 x8 = Opm.G x0 x1 x2 x3 x4 x5 x6 x7 x8 := by
  funext y
  obtain ⟨i, j, p, rfl⟩ : ∃ (i j : Fin 192) (p : Fin 128), y = ix4 (0 : Fin 1) i j p :=
    ⟨y 1, y 2, y 3, funext fun a => by
      match a with
      | ⟨0, _⟩ => exact Fin.ext (Nat.lt_one_iff.mp (y 0).isLt)
      | ⟨1, _⟩ => rfl
      | ⟨2, _⟩ => rfl
      | ⟨3, _⟩ => rfl⟩
  have hb : idx_main_v44 (idx_main_v45 (ix4 (0 : Fin 1) i j p)) = ix1 p :=
    funext fun a => Fin.ext (by match a with | ⟨0, _⟩ => rfl)
  have hw : ∀ K : Fin 1024, ridx_main_v43 (ix4 (0 : Fin 1) i j p) K = ix2 K p := fun K =>
    funext fun a => Fin.ext (by match a with | ⟨0, _⟩ => rfl | ⟨1, _⟩ => rfl)
  have hf : ∀ K : Fin 1024, idx_main_v42 (lidx_main_v43 (ix4 (0 : Fin 1) i j p) K)
      = ix5 (0 : Fin 1) i j (⟨K.val / 32, by omega⟩ : Fin 32) (⟨K.val % 32, Nat.mod_lt _ (by decide)⟩ : Fin 32) := fun K =>
    funext fun a => Fin.ext (by
      have hi := i.isLt
      have hj := j.isLt
      have hK := K.isLt
      match a with
      | ⟨0, _⟩ => rfl
      | ⟨1, _⟩ => show (((0 * 192 + i.val) * 192 + j.val) * 1024 + K.val) / 196608 % 192 = i.val; omega
      | ⟨2, _⟩ => show (((0 * 192 + i.val) * 192 + j.val) * 1024 + K.val) / 1024 % 192 = j.val; omega
      | ⟨3, _⟩ => show (((0 * 192 + i.val) * 192 + j.val) * 1024 + K.val) / 32 % 32 = K.val / 32; omega
      | ⟨4, _⟩ => show (((0 * 192 + i.val) * 192 + j.val) * 1024 + K.val) % 32 = K.val % 32; omega)
  rw [val_main_v46_apply, val_main_v43_apply, val_main_v45_apply, val_main_v44_apply, hb, Ideal.addf_def, Opm.G_ix]
  simp only [val_main_v42_apply, hw, hf, mean_apply]
  rfl

end Cert.ReferenceIdeal.OPM

end
-- ==== Proof.lean ====
/-
  The certificate of the outer-product-mean block: a Pallas program of two kernels against its jnp reference.

  Both programs layer-normalise every row of 256 channels of the input, project the normalised rows twice to 32
  hidden channels, and form, for residues (i, j) and output channel p,
      z[i, j, p] = ∑_{d, e} (mean over the 64 sequences of L[d,i,·] R[d,j,·] L[e,i,·] R[e,j,·]) · Wo[32 d + e, p] + bo[p].
  The kernel program computes the projections in its first kernel, one block of 96 residues a grid point, and the
  sum in its second, eight slabs of 128 flat rows (d, e) a row tile, with the mean's factor 1/64 folded into the
  weights by a host multiplication and the four factors grouped as (L_d L_e)(R_d R_e). The reference contracts all
  1024 flat rows at once, divides by 64, and groups the factors as (L_d R_d)(L_e R_e). On the extended reals the two
  are the same function of the arguments, whatever their values: only commutativity and associativity of the two
  operations are used, and that dividing by 64 is multiplying by 1/64.

  The frames of the two kernel programs are the generated ones; the reference's frame is its generated run with the
  result dropped; the idealization rewrote nothing, so its soundness claim is trivial; the equivalence sets the
  kernel's run (`KValue.run`) beside the reference's generated run, both ending at the specification's `Opm.G`.
-/
import proofs.«414971_j36060545417655_3_alg».proof.Defs
import proofs.«414971_j36060545417655_3_alg».proof.Proof.Gen.Kernel
import proofs.«414971_j36060545417655_3_alg».proof.Proof.Gen.Kernel.Frame
import proofs.«414971_j36060545417655_3_alg».proof.Proof.Gen.KernelIdeal
import proofs.«414971_j36060545417655_3_alg».proof.Proof.Gen.KernelIdeal.Frame
import proofs.«414971_j36060545417655_3_alg».proof.Proof.Gen.ReferenceIdeal
import proofs.«414971_j36060545417655_3_alg».proof.Proof.Gen.ReferenceIdeal.Run
import proofs.«414971_j36060545417655_3_alg».proof.Proof.Gen.ReferenceIdeal.Read
import proofs.«414971_j36060545417655_3_alg».proof.Proof.Gen.Pre_finite_inputs
import proofs.«414971_j36060545417655_3_alg».proof.Proof.KValue
import proofs.«414971_j36060545417655_3_alg».proof.Proof.ROut
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : @Cert.frame_Kernel Cert.Kernel.Gen.facts Cert.Pre_finite_inputs.Gen.facts :=
  fun m ρ _ => Cert.Kernel.Gen.frame m ρ

/-- So does the idealized kernel program. -/
theorem frame_ki : @Cert.frame_KernelIdeal Cert.KernelIdeal.Gen.facts Cert.Pre_finite_inputs.Gen.facts :=
  fun m ρ _ => Cert.KernelIdeal.Gen.frame m ρ

/-- The reference's frame is its run with the result forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both programs end at the specification's result of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.OPM.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.OPM.out_eq]
  obtain ⟨h0, h1, h2, h3, h4, h5, h6, h7, h8⟩ := hagree c
  rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
